-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S256x128 : Shape := ⟨2, ![256, 128]⟩
abbrev S5000x256 : Shape := ⟨2, ![5000, 256]⟩
abbrev S256 : Shape := ⟨1, ![256]⟩
abbrev S256x1 : Shape := ⟨2, ![256, 1]⟩
abbrev S1x1 : Shape := ⟨2, ![1, 1]⟩

abbrev nBuf : Space → Nat
  | .hbm => 105
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x128, .bf16⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .bf16⟩
  | .hbm, ⟨58, _⟩ => ⟨S1600000x128, .f32⟩
  | .hbm, ⟨59, _⟩ => ⟨S1600000x1, .f32⟩
  | .hbm, ⟨60, _⟩ => ⟨S1600000x128, .f32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S1x128, .f32⟩
  | .hbm, ⟨67, _⟩ => ⟨S100000x128, .bf16⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .bf16⟩
  | .hbm, ⟨77, _⟩ => ⟨S1600000x128, .f32⟩
  | .hbm, ⟨78, _⟩ => ⟨S1600000x1, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S1x128, .f32⟩
  | .hbm, ⟨86, _⟩ => ⟨S100000x1, .i32⟩
  | .hbm, ⟨87, _⟩ => ⟨S256x128, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S256, .f32⟩
  | .hbm, ⟨92, _⟩ => ⟨S100000x1, .i32⟩
  | .hbm, ⟨93, _⟩ => ⟨S256, .f32⟩
  | .hbm, ⟨94, _⟩ => ⟨S_, .f32⟩
  | .hbm, ⟨95, _⟩ => ⟨S256, .f32⟩
  | .hbm, ⟨96, _⟩ => ⟨S256, .f32⟩
  | .hbm, ⟨97, _⟩ => ⟨S256x1, .f32⟩
  | .hbm, ⟨98, _⟩ => ⟨S256x128, .f32⟩
  | .hbm, ⟨99, _⟩ => ⟨S256x128, .f32⟩
  | .hbm, ⟨100, _⟩ => ⟨S256x1, .f32⟩
  | .hbm, ⟨101, _⟩ => ⟨S1x1, .f32⟩
  | .hbm, ⟨102, _⟩ => ⟨S256x1, .f32⟩
  | .hbm, ⟨103, _⟩ => ⟨S256x1, .f32⟩
  | .hbm, ⟨104, _⟩ => ⟨S256, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S5000x128, .bf16⟩
  | .local _ .vmem, ⟨8, _⟩ => ⟨S5000x128, .bf16⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x128, .bf16⟩
  | .local _ .vmem, ⟨18, _⟩ => ⟨S5000x128, .bf16⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S5000x1, .i32⟩
  | .local _ .vmem, ⟨23, _⟩ => ⟨S5000x1, .i32⟩
  | .local _ .vmem, ⟨24, _⟩ => ⟨S256x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S256x128_S256x128_0_0 : ∀ a, (![0, 0] : Fin 2 → Nat) a + S256x128.size a ≤ S256x128.size a
  h_S256x128 : 0 < S256x128.numel
  iota_S5000x256_d1_w32 : S5000x256.Iotas .tc 32 [1]
  broadcasts_S5000x1_S5000x256 : S5000x1.Broadcasts S5000x256
  natLt_1_32 : 1 < 32
  shapeCasts_S256x128_S256x128 : S256x128.ShapeCasts S256x128
  bcast_S_S256 : S_.BroadcastsInDim S256 (![] : Fin 0 → Fin S256.rank)
  bcast_S100000_S100000x1_0 : S100000.BroadcastsInDim S100000x1 (![0] : Fin 1 → Fin S100000x1.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S5000x128_S256x128_0_0_1_1_n_n_wf : DotDims.WF S5000x256 S5000x128 S256x128 [0] [0] [1] [1] [] []
  scatter_S256_S100000x1_S100000_n_0_0_1_wf : ScatterDims.WF S256 S100000x1 S100000 [] [0] [0] 1
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .i32 = 32 ∨ (Rect.block (s := S100000x1) S5000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v63) S256x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S1x1 : Shape := ⟨2, ![1, 1]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S_, .f32⟩
  | 62 => ⟨S100000, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S1600000, .f32⟩
  | 77 => ⟨S_, .f32⟩
  | 78 => ⟨S100000, .f32⟩
  | 79 => ⟨S1600000x1, .i32⟩
  | 80 => ⟨S100000, .f32⟩
  | 81 => ⟨S_, .f32⟩
  | 82 => ⟨S100000, .f32⟩
  | 83 => ⟨S100000, .f32⟩
  | 84 => ⟨S_, .f32⟩
  | 85 => ⟨S100000, .f32⟩
  | 86 => ⟨S100000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S1600000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .f32⟩
  | 115 => ⟨S1600000x1, .f32⟩
  | 116 => ⟨S1600000x128, .f32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S_, .f32⟩
  | 123 => ⟨S100000, .f32⟩
  | 124 => ⟨S100000, .f32⟩
  | 125 => ⟨S100000x1, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S_, .f32⟩
  | 8 => ⟨S256x128, .f32⟩
  | 9 => ⟨S100000x1, .i32⟩
  | 10 => ⟨S256x128, .f32⟩
  | 11 => ⟨S_, .f32⟩
  | 12 => ⟨S100000, .f32⟩
  | 13 => ⟨S_, .f32⟩
  | 14 => ⟨S256, .f32⟩
  | 15 => ⟨S100000x1, .i32⟩
  | 16 => ⟨S256, .f32⟩
  | 17 => ⟨S_, .f32⟩
  | 18 => ⟨S256, .f32⟩
  | 19 => ⟨S256, .f32⟩
  | 20 => ⟨S256x1, .f32⟩
  | 21 => ⟨S256x128, .f32⟩
  | 22 => ⟨S256x128, .f32⟩
  | 23 => ⟨S256x1, .f32⟩
  | 24 => ⟨S1x1, .f32⟩
  | 25 => ⟨S256x1, .f32⟩
  | 26 => ⟨S256x1, .f32⟩
  | 27 => ⟨S256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call0_cst : Ref sig .tc := ⟨.hbm, 71, rfl⟩
abbrev main_call0_v0 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_c_14 : Ref sig .tc := ⟨.hbm, 87, rfl⟩
abbrev main_v60 : Ref sig .tc := ⟨.hbm, 88, rfl⟩
abbrev main_v61 : Ref sig .tc := ⟨.hbm, 89, rfl⟩
abbrev main_c_15 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_16 : Ref sig .tc := ⟨.hbm, 96, rfl⟩
abbrev main_v67 : Ref sig .tc := ⟨.hbm, 97, rfl⟩
abbrev main_v68 : Ref sig .tc := ⟨.hbm, 98, rfl⟩
abbrev main_c_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_18 : Ref sig .tc := ⟨.hbm, 106, rfl⟩
abbrev main_v75 : Ref sig .tc := ⟨.hbm, 107, rfl⟩
abbrev main_v76 : Ref sig .tc := ⟨.hbm, 108, rfl⟩
abbrev main_c_19 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_20 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_21 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_call1_cst : Ref sig .tc := ⟨.hbm, 132, rfl⟩
abbrev main_call1_v0 : Ref sig .tc := ⟨.hbm, 133, rfl⟩
abbrev main_v97 : Ref sig .tc := ⟨.hbm, 134, rfl⟩
abbrev main_cst_22 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_23 : Ref sig .tc := ⟨.hbm, 139, rfl⟩
abbrev main_v101 : Ref sig .tc := ⟨.hbm, 140, rfl⟩
abbrev main_cst_24 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_25 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x1_S256x1_1_0_0_1_n_n_wf : DotDims.WF S256x128 S128x1 S256x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.Bridge.lean ====
/-
  The three array functions the kernel regions compute, written with the host operations the reference uses:
  a layer's combination relu(agg + h * (1/deg) + b) over the node table, the projection of the node table by a
  128 x 128 weight matrix, and the sum of the node rows into the 256 graph rows they belong to.
-/
import proofs.«428762_j9242769621112_2_alg».proof.Proof.Gen.ReferenceIdeal
import Idealize.ShloMosaic.PureOps.Ideal

noncomputable section

namespace Cert.Bridge

open Idealize.ShloMosaic Cert.ReferenceIdeal Cert.ReferenceIdeal.Gen

/-- relu(agg + h * invd + b): invd one column (a value per node), b one row (a value per channel), both
    broadcast over the 100000 x 128 node table; the maximum is taken with the zero table. -/
def combine (agg h : FVec Ideal S100000x128 .f32) (invd : FVec Ideal S100000x1 .f32) (b : FVec Ideal S1x128 .f32) :
    FVec Ideal S100000x128 .f32 :=
  maximumf
    (addf (addf agg (mulf h (broadcastInDim S100000x128 ![0, 1] bcast_S100000x1_S100000x128_0_1 invd)))
      (broadcastInDim S100000x128 ![0, 1] bcast_S1x128_S100000x128_0_1 b))
    (broadcastInDim S100000x128 ![] bcast_S_S100000x128 (constant (F := Ideal) S_ .f32 0x00000000#32))

/-- The node table times a 128 x 128 weight matrix, contracting the channel axis. -/
def proj (h : FVec Ideal S100000x128 .f32) (W : FVec Ideal S128x128 .f32) : FVec Ideal S100000x128 .f32 :=
  Host.dotGeneral dot_S100000x128_S128x128_S100000x128_1_0_0_1_n_n none h W

/-- The node rows added into the 256 x 128 graph table, row r into the graph row its (signed, unclamped)
    graph id names; a row whose id is outside 0..255 is dropped. -/
def pool (bat : IVec S100000x1 32) (h : FVec Ideal S100000x128 .f32) : FVec Ideal S256x128 .f32 :=
  Host.scatterAdd scatter_S256x128_S100000x1_S100000x128_1_0_0_1
    (broadcastInDim S256x128 ![] bcast_S_S256x128 (constant (F := Ideal) S_ .f32 0x00000000#32)) bat h

end Cert.Bridge

end
-- ==== Proof.LibRowOps.lean ====
/-
  Host row operations read at an index, over the extended reals and arbitrary sizes: a scatter-add of E scalars
  into a vector of length N, a scatter-add of E rows into an N x C table, a gather of E rows out of an N x C table,
  and a one-row dynamic slice of an N x C table. A scatter index is read signed and not clamped (an update whose
  index is outside 0..N-1 lands nowhere); a gather or slice start is read signed and clamped into 0..N-1.
-/
import Idealize.ShloMosaic.PureOps.Ideal
import Idealize.ShloMosaic.Lib.ValueIdx

noncomputable section

namespace Cert.LibRowOps

open Idealize.ShloMosaic Idealize.ShloMosaic.ValueIdx

/-- The row a clamped signed start z selects in a table of N rows. -/
def clampRow (N : Nat) (hN : 0 < N) (z : Int) : Fin N := ⟨(min (max z 0) ((N - 1 : Nat) : Int)).toNat, by omega⟩

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- An update lands at operand index i exactly when, on every operand axis, its signed start plus its window
    coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

/-- Rank 1, one scatter axis and no window: an update lands at n exactly when its signed index is n. -/
theorem vec_resultIdx?_iff {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (e : Fin E) (n : Fin N) :
    d.resultIdx? (ix1 e) idx = some (ix1 n) ↔ (idx (ix2 e 0)).toInt = (n.val : ℤ) := by
  obtain ⟨uw, iw, sd, iv, wf⟩ := d
  simp only at hu hi hs hv
  subst hu hi hs hv
  rw [resultIdx?_eq_some_iff, Fin.forall_fin_one]
  have hstart : (ScatterDims.mk (s := ⟨1, ![N]⟩) (si := ⟨2, ![E, 1]⟩) (u := ⟨1, ![E]⟩) [] [0] [0] 1 wf).start (ix1 e) idx 0
      = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin : (ScatterDims.mk (s := ⟨1, ![N]⟩) (si := ⟨2, ![E, 1]⟩) (u := ⟨1, ![E]⟩) [] [0] [0] 1 wf).window (ix1 e) 0 = 0 := by
    unfold ScatterDims.window
    rw [dif_neg (by simp [Shape.kept])]
  rw [hstart, hwin]
  simp

/-- E scalars added into a vector of length N at signed, unclamped indices: entry n ends at its old value plus
    the updates whose index is n. -/
theorem scatterAdd_vec_apply {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e : Fin E, (if (idx (ix2 e 0)).toInt = (n.val : ℤ) then upd (ix1 e) else 0) := by
  unfold Ideal.hostScatterAdd
  congr 1
  rw [Finset.sum_filter, sum_idx1]
  refine Finset.sum_congr rfl fun e _ => ?_
  simp only [vec_resultIdx?_iff d hu hi hs hv idx e n]

/-- Rank 2, one scatter axis (the rows) and one window axis (the columns): the update at row e, column f' lands
    at (n, f) exactly when f' = f and row e's signed index is n. -/
theorem rows_resultIdx?_iff {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1) (idx : IVec ⟨2, ![E, 1]⟩ w) (e : Fin E) (f' f : Fin C) (n : Fin N) :
    d.resultIdx? (ix2 e f') idx = some (ix2 n f) ↔ f' = f ∧ (idx (ix2 e 0)).toInt = (n.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![N, C]⟩) (si := ⟨2, ![E, 1]⟩) (u := ⟨2, ![E, C]⟩) [1] [0] [0] 1 wf).start
      (ix2 e f') idx 0 = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin0 : (ScatterDims.mk (s := ⟨2, ![N, C]⟩) (si := ⟨2, ![E, 1]⟩) (u := ⟨2, ![E, C]⟩) [1] [0] [0] 1 wf).window
      (ix2 e f') 0 = 0 := by
    unfold ScatterDims.window
    rw [dif_neg (by simp [Shape.kept])]
  have hstart1 : (ScatterDims.mk (s := ⟨2, ![N, C]⟩) (si := ⟨2, ![E, 1]⟩) (u := ⟨2, ![E, C]⟩) [1] [0] [0] 1 wf).start
      (ix2 e f') idx 1 = 0 := by
    unfold ScatterDims.start
    rw [dif_neg (by simp)]
  have hwin1 : (ScatterDims.mk (s := ⟨2, ![N, C]⟩) (si := ⟨2, ![E, 1]⟩) (u := ⟨2, ![E, C]⟩) [1] [0] [0] 1 wf).window
      (ix2 e f') 1 = f'.val := by
    unfold ScatterDims.window
    rw [dif_pos (by simp [Shape.kept, List.finRange])]
    rfl
  rw [hstart0, hwin0, hstart1, hwin1]
  show (idx (ix2 e 0)).toInt + ((0 : ℕ) : ℤ) = (n.val : ℤ) ∧ (0 : ℤ) + (f'.val : ℤ) = (f.val : ℤ) ↔ _
  rw [Fin.ext_iff]
  constructor
  · rintro ⟨h1, h2⟩; exact ⟨by omega, by omega⟩
  · rintro ⟨h1, h2⟩; exact ⟨by omega, by omega⟩

/-- E rows added into an N x C table at signed, unclamped row indices. -/
theorem scatterAdd_rows_apply {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd d x idx upd (ix2 n f)
      = x (ix2 n f) + ∑ e : Fin E, (if (idx (ix2 e 0)).toInt = (n.val : ℤ) then upd (ix2 e f) else 0) := by
  unfold Ideal.hostScatterAdd
  congr 1
  rw [Finset.sum_filter, sum_idx2]
  refine Finset.sum_congr rfl fun e _ => ?_
  simp only [rows_resultIdx?_iff d hu hi hs hv idx e _ f n]
  rw [Finset.sum_eq_single f]
  · simp
  · intro f' _ hne
    rw [if_neg (fun h => hne h.1)]
  · intro h; exact absurd (Finset.mem_univ f) h

/-- E rows gathered out of an N x C table: row e of the result is the table's row at the clamped signed index. -/
theorem gather_rows_apply {α : Type} {N C E w : Nat} (hN : 0 < N) (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (hsz : d.sliceSizes = ![1, C])
    (x : (⟨2, ![N, C]⟩ : Shape).Idx → α) (idx : IVec ⟨2, ![E, 1]⟩ w) (e : Fin E) (f : Fin C) :
    Host.gather d x idx (ix2 e f) = x (ix2 (clampRow N hN (idx (ix2 e 0)).toInt) f) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix2 e f) idx a + GatherDims.batchCoord _ (ix2 e f) a + GatherDims.offCoord _ (ix2 e f) a = _
  rw [GatherDims.batchCoord_eq_zero _ _ _ List.not_mem_nil, Nat.add_zero]
  revert a
  rw [Fin.forall_fin_two]
  refine ⟨?_, ?_⟩
  · rw [GatherDims.offCoord_eq_zero _ _ _ (fun h => ((GatherDims.mem_sKept _ _).mp h).1 (List.mem_singleton.mpr rfl)),
      Nat.add_zero]
    unfold GatherDims.start
    rw [dif_pos (List.mem_singleton.mpr rfl)]
    have hsi : ∀ c, GatherDims.siIdx (s := ⟨2, ![N, C]⟩) (si := ⟨2, ![E, 1]⟩) (t := ⟨2, ![E, C]⟩)
        ⟨[1], [0], [], [], [0], 1, ![1, C], wf⟩ (ix2 e f) c = ix2 e 0 := by
      intro c
      funext b; refine Fin.ext ?_
      match b with
      | ⟨0, _⟩ => rfl
      | ⟨1, _⟩ => exact Nat.lt_one_iff.mp c.isLt
    rw [hsi]
    show min (idx (ix2 e 0)).toInt.toNat (N - 1) = (min (max (idx (ix2 e 0)).toInt 0) ((N - 1 : Nat) : Int)).toNat
    omega
  · unfold GatherDims.start
    rw [dif_neg (by simp), Nat.zero_add]
    rfl

/-- A one-row dynamic slice of an N x C table whose column start is 0: the row at the clamped signed start. -/
theorem dynamicSlice_row_apply {α : Type} {N C : Nat} (hN : 0 < N) (x : (⟨2, ![N, C]⟩ : Shape).Idx → α) (start : Fin 2 → Int)
    (h0 : start 1 = 0) (h : (⟨2, ![N, C]⟩ : Shape).Slices (fun _ => 0) ⟨2, ![1, C]⟩) (f : Fin C) :
    Host.dynamicSlice (s := ⟨2, ![N, C]⟩) ⟨2, ![1, C]⟩ x start h (ix2 0 f) = x (ix2 (clampRow N hN (start 0)) f) := by
  show x _ = x _
  congr 1
  funext a
  refine Fin.ext ?_
  match a with
  | ⟨0, _⟩ =>
    show (min (max (start 0) 0) ((N - 1 : Nat) : Int)).toNat + 0 = (min (max (start 0) 0) ((N - 1 : Nat) : Int)).toNat
    rfl
  | ⟨1, _⟩ =>
    show (min (max (start 1) 0) ((C - C : Nat) : Int)).toNat + f.val = f.val
    rw [h0]; simp

end Cert.LibRowOps

end
-- ==== Proof.BridgeAt.lean ====
/-
  The three array functions of Bridge read at an index: a layer's combination at node r and channel ch; the
  projection as the sum over the 128 contracted channels; the pooled table at graph g and channel ch as the sum over
  all 100000 node rows of the rows whose signed graph id is g.
-/
import proofs.«428762_j9242769621112_2_alg».proof.Proof.Bridge
import proofs.«428762_j9242769621112_2_alg».proof.Proof.LibRowOps
import proofs.«428762_j9242769621112_2_alg».proof.Proof.Gen.ReferenceIdeal.Read
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Cert.ReferenceIdeal Cert.ReferenceIdeal.Gen

/-- relu(agg + h * invd + b) at node r, channel ch: invd is read at (r, 0) and b at (0, ch). -/
theorem combine_apply (agg h : FVec Ideal S100000x128 .f32) (invd : FVec Ideal S100000x1 .f32) (b : FVec Ideal S1x128 .f32)
    (r : Fin 100000) (ch : Fin 128) :
    combine agg h invd b (ix2 r ch) = max (agg (ix2 r ch) + h (ix2 r ch) * invd (ix2 r 0) + b (ix2 0 ch)) 0 := by
  have e1 : broadcastInDim S100000x128 ![0, 1] bcast_S100000x1_S100000x128_0_1 invd (ix2 r ch) = invd (ix2 r 0) :=
    broadcastInDim_apply _ bcast_S100000x1_S100000x128_0_1 invd (ix2 r ch) (ix2 r 0) (fun a => match a with
      | ⟨0, _⟩ => by show r.val = if (100000 : Nat) = 1 then 0 else r.val; rw [if_neg (by decide)]
      | ⟨1, _⟩ => by show 0 = if (1 : Nat) = 1 then 0 else ch.val; rw [if_pos rfl])
  have e2 : broadcastInDim S100000x128 ![0, 1] bcast_S1x128_S100000x128_0_1 b (ix2 r ch) = b (ix2 0 ch) :=
    broadcastInDim_apply _ bcast_S1x128_S100000x128_0_1 b (ix2 r ch) (ix2 0 ch) (fun a => match a with
      | ⟨0, _⟩ => by show 0 = if (1 : Nat) = 1 then 0 else r.val; rw [if_pos rfl]
      | ⟨1, _⟩ => by show ch.val = if (128 : Nat) = 1 then 0 else ch.val; rw [if_neg (by decide)])
  have e3 : broadcastInDim S100000x128 ![] bcast_S_S100000x128 (constant (F := Ideal) S_ .f32 0x00000000#32) (ix2 r ch) = 0 :=
    (broadcastInDim_apply _ bcast_S_S100000x128 (constant (F := Ideal) S_ .f32 0x00000000#32) (ix2 r ch) (fun a => a.elim0)
      (fun a => a.elim0)).trans Ideal.ofBits_zero_f32
  show max (agg (ix2 r ch) + h (ix2 r ch) * broadcastInDim S100000x128 ![0, 1] bcast_S100000x1_S100000x128_0_1 invd (ix2 r ch)
      + broadcastInDim S100000x128 ![0, 1] bcast_S1x128_S100000x128_0_1 b (ix2 r ch))
      (broadcastInDim S100000x128 ![] bcast_S_S100000x128 (constant (F := Ideal) S_ .f32 0x00000000#32) (ix2 r ch)) = _
  rw [e1, e2, e3]

/-- The projection at node r, output channel k: the sum over the contracted channel j. -/
theorem proj_apply (h : FVec Ideal S100000x128 .f32) (W : FVec Ideal S128x128 .f32) (r : Fin 100000) (k : Fin 128) :
    proj h W (ix2 r k) = ∑ j : Fin 128, h (ix2 r j) * W (ix2 j k) := by
  refine (Cert.ReferenceIdeal.Read.val_main_v4_apply h W (ix2 r k)).trans ?_
  refine Finset.sum_congr rfl fun j _ => ?_
  have el : Cert.ReferenceIdeal.Read.lidx_main_v4 (ix2 r k) j = ix2 r j :=
    funext fun a => Fin.ext (by match a with | ⟨0, _⟩ => rfl | ⟨1, _⟩ => rfl)
  have er : Cert.ReferenceIdeal.Read.ridx_main_v4 (ix2 r k) j = ix2 j k :=
    funext fun a => Fin.ext (by match a with | ⟨0, _⟩ => rfl | ⟨1, _⟩ => rfl)
  rw [el, er]

/-- The pooled table at graph g, channel ch: the node rows whose signed graph id is g, added up. -/
theorem pool_apply (bat : IVec S100000x1 32) (h : FVec Ideal S100000x128 .f32) (g : Fin 256) (ch : Fin 128) :
    pool bat h (ix2 g ch) = ∑ r : Fin 100000, (if (bat (ix2 r 0)).toInt = (g.val : ℤ) then h (ix2 r ch) else 0) := by
  have e0 : broadcastInDim S256x128 ![] bcast_S_S256x128 (constant (F := Ideal) S_ .f32 0x00000000#32) (ix2 g ch) = 0 :=
    (broadcastInDim_apply _ bcast_S_S256x128 (constant (F := Ideal) S_ .f32 0x00000000#32) (ix2 g ch) (fun a => a.elim0)
      (fun a => a.elim0)).trans Ideal.ofBits_zero_f32
  unfold pool
  simp only [Host.scatterAdd, Ideal.hostScatterAdd_def]
  rw [Cert.LibRowOps.scatterAdd_rows_apply scatter_S256x128_S100000x1_S100000x128_1_0_0_1 rfl rfl rfl rfl, e0, zero_add]

end Cert.Bridge

end
-- ==== Proof.RegionProj.lean ====
/-
  The first kernel region: twenty row tiles of 5000 nodes, each tile of x times the whole weight matrix, written
  back tile by tile. After the region its output array is the whole projection of x by W1.
-/
import proofs.«428762_j9242769621112_2_alg».proof.Proof.Gen.KernelIdeal.Frame
import proofs.«428762_j9242769621112_2_alg».proof.Proof.BridgeAt

set_option maxRecDepth 16384

noncomputable section

namespace Cert.KernelIdeal.RegionValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

namespace Proj

/-! ## A tile's product at an index -/

/-- The left operand of the tile's contraction is read at the output's row … -/
theorem tile_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted channel; -/
theorem tile_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted channel … -/
theorem tile_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's channel. -/
theorem tile_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 x 128 tile times a 128 x 128 matrix, accumulated into zero, at row p and channel q: the sum over the
    contracted channel j of the tile at (p, j) times the matrix at (j, q). -/
theorem tile_matmul_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ j : Fin 128, a (ix2 p j) * b (ix2 j q) := by
  show FloatOps.matmul dot_S5000x128_S128x128_S5000x128_1_0_0_1_n_n none a b (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact tile_lhs_0 _ _
    | ⟨1, _⟩ => exact (tile_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (tile_rhs_0 _ _).trans hk
    | ⟨1, _⟩ => exact tile_rhs_1 _ _)
  rw [el, er]

/-- The first region's payload at row p, channel q of the tile: the format changes are the identity, so it is the
    tile's row p against the weight matrix's column q. -/
theorem proj_tile_apply (x0 : Vec Ideal S5000x128 .f32) (x1 : Vec Ideal S128x128 .f32) (p : Fin 5000) (q : Fin 128) :
    k0_pay1 (F := Ideal) x0 x1 (ix2 p q) = ∑ j : Fin 128, x0 (ix2 p j) * x1 (ix2 j q) := by
  unfold k0_pay1
  exact tile_matmul_apply (truncf .bf16 x0 bitsLt_bf16_f32) (truncf .bf16 x1 bitsLt_bf16_f32) p q

/-! ## From the tiles to the array -/

theorem zero_corner : (![0, 0] : Fin 2 → Nat) = fun _ => 0 := funext fun a => by fin_cases a <;> rfl

/-- The payload at an index of the tile whose rows are rows of a node table A and whose matrix is W: the
    projection of A by W at the matching index of the table. -/
theorem proj_tile_eq (A : FVec Ideal S100000x128 .f32) (W : FVec Ideal S128x128 .f32)
    (x0 : Vec Ideal S5000x128 .f32) (x1 : Vec Ideal S128x128 .f32) (j : S5000x128.Idx) (i : S100000x128.Idx)
    (h0 : ∀ k : Fin 128, x0 (ix2 (j 0) k) = A (ix2 (i 0) k)) (h1 : ∀ k : Fin 128, x1 (ix2 k (j 1)) = W (ix2 k (i 1))) :
    k0_pay1 (F := Ideal) x0 x1 j = Cert.Bridge.proj A W i := by
  refine (congrArg (k0_pay1 (F := Ideal) x0 x1) (eq_ix2 (n0 := 5000) (n1 := 128) j)).trans ?_
  refine ((proj_tile_apply x0 x1 (j 0) (j 1)).trans ?_).trans
    (congrArg (Cert.Bridge.proj A W) (eq_ix2 (n0 := 100000) (n1 := 128) i)).symm
  refine (Finset.sum_congr rfl fun k _ => ?_).trans (Cert.Bridge.proj_apply A W (i 0) (i 1)).symm
  rw [h0 k, h1 k]

/-- The printed index maps, decided over the grid: point t's row tile is tile t of x and of the output, in the
    one column of tiles; the weight matrix is its one block. -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the projection of x by W1. -/
theorem flushed_proj (c : Dev nD) (t : Fin cfg0.N) :
    (dat0 (F := Ideal) V c).flushed 2 t
      = ((cfg0.win 2).blk t).view.read (Elt Ideal) (Cert.Bridge.proj (V c main_arg0) (V c main_arg3)) := by
  show (cfg0.win 2).cut (grid0.coords t) ((dat0 V c).after 2 t) = _
  rw [after0_2]
  unfold out0_2
  rw [View.canon_unit_zero zero_corner]
  simp only [View.ld_unit_zero (S := S5000x128) zero_corner, View.ld_unit_zero (S := S128x128) zero_corner]
  obtain ⟨e0, e1, e2, e3, e4, e5⟩ := tile_index t
  funext j
  show k0_pay1 (F := Ideal) (iblk0 V c 0 t) (iblk0 V c 1 t) j
    = Cert.Bridge.proj (V c main_arg0) (V c main_arg3) (((cfg0.win 2).blk t).view.emb j)
  refine proj_tile_eq (V c main_arg0) (V c main_arg3) (iblk0 V c 0 t) (iblk0 V c 1 t) j (((cfg0.win 2).blk t).view.emb j) ?_ ?_
  · intro k
    show V c main_arg0 (((cfg0.win 0).blk t).view.emb (ix2 (j 0) k)) = V c main_arg0 (ix2 (((cfg0.win 2).blk t).view.emb j 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · intro k
    show V c main_arg3 (((cfg0.win 1).blk t).view.emb (ix2 k (j 1))) = V c main_arg3 (ix2 k (((cfg0.win 2).blk t).view.emb j 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the array is in point t's tile iff each coordinate is in the tile's range on its axis. -/
theorem mem_tile (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the array lies in the tile of the point its row falls in: row r in tile r / 5000. -/
theorem tiles_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < 20 := by omega
  obtain ⟨e0, e1, e2, e3, e4, e5⟩ := tile_index ⟨(i 0).val / 5000, ht⟩
  refine ⟨⟨(i 0).val / 5000, ht⟩, flush0_2 _, ?_⟩
  rw [mem_tile]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

end Proj

/-- Region 0's output array after its twenty points, from the contents V the region is entered at. -/
theorem region0 (c : Dev nD) :
    (dat0 (F := Ideal) V c).arrAt 2 cfg0.N = Cert.Bridge.proj (V c main_arg0) (V c main_arg3) :=
  (dat0 (F := Ideal) V c).arrAt_eq_of_cover 2 _ (fun t _ => Proj.flushed_proj V c t) Proj.tiles_cover

end Cert.KernelIdeal.RegionValue

end
-- ==== Proof.RegionCombineProj.lean ====
/-
  The second kernel region: per row tile, relu(agg + h * (1/deg) + b) of the tile's rows, times the whole second
  weight matrix. After the region its output array is the projection of the combined node table by W2.
-/
import proofs.«428762_j9242769621112_2_alg».proof.Proof.Gen.KernelIdeal.Frame
import proofs.«428762_j9242769621112_2_alg».proof.Proof.BridgeAt

set_option maxRecDepth 16384

noncomputable section

namespace Cert.KernelIdeal.RegionValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

namespace CombineProj

/-! ## A tile's product at an index -/

/-- The left operand of the tile's contraction is read at the output's row … -/
theorem tile_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted channel; -/
theorem tile_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted channel … -/
theorem tile_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's channel. -/
theorem tile_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 x 128 tile times a 128 x 128 matrix, accumulated into zero, at row p and channel q: the sum over the
    contracted channel j of the tile at (p, j) times the matrix at (j, q). -/
theorem tile_matmul_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ j : Fin 128, a (ix2 p j) * b (ix2 j q) := by
  show FloatOps.matmul dot_S5000x128_S128x128_S5000x128_1_0_0_1_n_n none a b (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact tile_lhs_0 _ _
    | ⟨1, _⟩ => exact (tile_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (tile_rhs_0 _ _).trans hk
    | ⟨1, _⟩ => exact tile_rhs_1 _ _)
  rw [el, er]

/-! ## The column and the row laid over the tile -/

/-- A 5000 x 1 column laid over the 128 channels reads, at (p, j), the column's entry of row p. -/
theorem column_over_tile_apply (v : FVec Ideal S5000x1 .f32) (p : Fin 5000) (j : Fin 128) :
    broadcastTo S5000x128 v broadcasts_S5000x1_S5000x128 (ix2 p j) = v (ix2 p (0 : Fin 1)) := by
  refine broadcastTo_apply v broadcasts_S5000x1_S5000x128 (ix2 p j) (ix2 p (0 : Fin 1)) fun ax => ?_
  match ax with
  | ⟨0, _⟩ => rfl
  | ⟨1, _⟩ => rfl

/-- A 1 x 128 row laid over the 5000 rows reads, at (p, j), the row's entry of channel j. -/
theorem row_over_tile_apply (v : FVec Ideal S1x128 .f32) (p : Fin 5000) (j : Fin 128) :
    broadcastTo S5000x128 v broadcasts_S1x128_S5000x128 (ix2 p j) = v (ix2 (0 : Fin 1) j) := by
  refine broadcastTo_apply v broadcasts_S1x128_S5000x128 (ix2 p j) (ix2 (0 : Fin 1) j) fun ax => ?_
  match ax with
  | ⟨0, _⟩ => rfl
  | ⟨1, _⟩ => rfl

/-- The second region's payload at row p, channel q of the tile: the shape casts and format changes are the
    identity, so it is row p of relu(agg + h * invd + b) against the weight matrix's column q. -/
theorem combine_proj_tile_apply (v0 : Vec Ideal S5000x1 .f32) (v4 : Vec Ideal S1x128 .f32) (v8 : Vec Ideal S5000x128 .bf16)
    (v11 : Vec Ideal S5000x128 .f32) (v19 : Vec Ideal S128x128 .f32) (p : Fin 5000) (q : Fin 128) :
    k1_pay1 (F := Ideal) v0 v4 v8 v11 v19 (ix2 p q)
      = ∑ j : Fin 128, max (v11 (ix2 p j) + v8 (ix2 p j) * v0 (ix2 p (0 : Fin 1)) + v4 (ix2 (0 : Fin 1) j)) 0 * v19 (ix2 j q) := by
  unfold k1_pay1
  simp only [shapeCast_self]
  refine (tile_matmul_apply _ _ p q).trans ?_
  refine Finset.sum_congr rfl fun j _ => ?_
  show max (v11 (ix2 p j) + v8 (ix2 p j) * broadcastTo S5000x128 v0 broadcasts_S5000x1_S5000x128 (ix2 p j)
      + broadcastTo S5000x128 v4 broadcasts_S1x128_S5000x128 (ix2 p j)) (Ideal.ofBits .f32 0x00000000#32) * v19 (ix2 j q) = _
  rw [column_over_tile_apply, row_over_tile_apply, Ideal.ofBits_zero_f32]

/-! ## From the tiles to the array -/

theorem zero_corner : (![0, 0] : Fin 2 → Nat) = fun _ => 0 := funext fun a => by fin_cases a <;> rfl

/-- The payload at an index of the tile whose rows are rows of the node tables Agg, H, the column D and the row B,
    and whose matrix is W: the projection by W of relu(Agg + H * D + B) at the matching index of the table. -/
theorem combine_proj_tile_eq (Agg H : FVec Ideal S100000x128 .f32) (D : FVec Ideal S100000x1 .f32) (B : FVec Ideal S1x128 .f32)
    (W : FVec Ideal S128x128 .f32)
    (v0 : Vec Ideal S5000x1 .f32) (v4 : Vec Ideal S1x128 .f32) (v8 : Vec Ideal S5000x128 .bf16)
    (v11 : Vec Ideal S5000x128 .f32) (v19 : Vec Ideal S128x128 .f32) (j : S5000x128.Idx) (i : S100000x128.Idx)
    (h11 : ∀ k : Fin 128, v11 (ix2 (j 0) k) = Agg (ix2 (i 0) k))
    (h8 : ∀ k : Fin 128, v8 (ix2 (j 0) k) = H (ix2 (i 0) k))
    (h0 : v0 (ix2 (j 0) (0 : Fin 1)) = D (ix2 (i 0) (0 : Fin 1)))
    (h4 : ∀ k : Fin 128, v4 (ix2 (0 : Fin 1) k) = B (ix2 (0 : Fin 1) k))
    (h19 : ∀ k : Fin 128, v19 (ix2 k (j 1)) = W (ix2 k (i 1))) :
    k1_pay1 (F := Ideal) v0 v4 v8 v11 v19 j = Cert.Bridge.proj (Cert.Bridge.combine Agg H D B) W i := by
  refine (congrArg (k1_pay1 (F := Ideal) v0 v4 v8 v11 v19) (eq_ix2 (n0 := 5000) (n1 := 128) j)).trans ?_
  refine ((combine_proj_tile_apply v0 v4 v8 v11 v19 (j 0) (j 1)).trans ?_).trans
    (congrArg (Cert.Bridge.proj (Cert.Bridge.combine Agg H D B) W) (eq_ix2 (n0 := 100000) (n1 := 128) i)).symm
  refine (Finset.sum_congr rfl fun k _ => ?_).trans (Cert.Bridge.proj_apply (Cert.Bridge.combine Agg H D B) W (i 0) (i 1)).symm
  rw [Cert.Bridge.combine_apply Agg H D B (i 0) k, h11 k, h8 k, h0, h4 k, h19 k]

/-- The printed index maps, decided over the grid: point t's row tile is tile t of the aggregated rows, of the
    projected rows, of the reciprocal degrees and of the output, in the one column of tiles; the bias row and the
    weight matrix are their one block. -/
theorem tile_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is tile t of the projection by W2 of the combined node table. -/
theorem flushed_combine_proj (c : Dev nD) (t : Fin cfg1.N) :
    (dat1 (F := Ideal) V c).flushed 5 t
      = ((cfg1.win 5).blk t).view.read (Elt Ideal)
          (Cert.Bridge.proj (Cert.Bridge.combine (V c main_v44) (V c main_v30) (V c main_v29) (V c main_v45)) (V c main_arg5)) := by
  show (cfg1.win 5).cut (grid1.coords t) ((dat1 V c).after 5 t) = _
  rw [after1_5]
  unfold out1_5
  rw [View.canon_unit_zero zero_corner]
  simp only [View.ld_unit_zero (S := S5000x128) zero_corner, View.ld_unit_zero (S := S128x128) zero_corner,
    View.ld_unit_zero (S := S5000x1) zero_corner, View.ld_unit_zero (S := S1x128) zero_corner]
  obtain ⟨e0, e1, e2, e3, e4, e5, e6, e7, e8, e9, e10, e11⟩ := tile_index t
  funext j
  show k1_pay1 (F := Ideal) (iblk1 V c 2 t) (iblk1 V c 3 t) (iblk1 V c 1 t) (iblk1 V c 0 t) (iblk1 V c 4 t) j
    = Cert.Bridge.proj (Cert.Bridge.combine (V c main_v44) (V c main_v30) (V c main_v29) (V c main_v45)) (V c main_arg5)
        (((cfg1.win 5).blk t).view.emb j)
  refine combine_proj_tile_eq (V c main_v44) (V c main_v30) (V c main_v29) (V c main_v45) (V c main_arg5)
    (iblk1 V c 2 t) (iblk1 V c 3 t) (iblk1 V c 1 t) (iblk1 V c 0 t) (iblk1 V c 4 t) j (((cfg1.win 5).blk t).view.emb j) ?_ ?_ ?_ ?_ ?_
  · intro k
    show V c main_v44 (((cfg1.win 0).blk t).view.emb (ix2 (j 0) k)) = V c main_v44 (ix2 (((cfg1.win 5).blk t).view.emb j 0) k)
    refine congrArg (V c main_v44) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    show V c main_v30 (((cfg1.win 1).blk t).view.emb (ix2 (j 0) k)) = V c main_v30 (ix2 (((cfg1.win 5).blk t).view.emb j 0) k)
    refine congrArg (V c main_v30) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show V c main_v29 (((cfg1.win 2).blk t).view.emb (ix2 (j 0) (0 : Fin 1))) = V c main_v29 (ix2 (((cfg1.win 5).blk t).view.emb j 0) (0 : Fin 1))
    refine congrArg (V c main_v29) (funext fun a => Fin.ext ?_)
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 1 + 1 * 0 = 0; omega
  · intro k
    show V c main_v45 (((cfg1.win 3).blk t).view.emb (ix2 (0 : Fin 1) k)) = V c main_v45 (ix2 (0 : Fin 1) k)
    refine congrArg (V c main_v45) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · intro k
    show V c main_arg5 (((cfg1.win 4).blk t).view.emb (ix2 k (j 1))) = V c main_arg5 (ix2 k (((cfg1.win 5).blk t).view.emb j 1))
    refine congrArg (V c main_arg5) (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_5.index t (1 : Fin 2) * 128 + 1 * (j 1).val; omega

/-- An index of the array is in point t's tile iff each coordinate is in the tile's range on its axis. -/
theorem mem_tile (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v46).slice (win1_5.rect t)).set ↔ _
  rw [View.set_slice_whole, Rect.mem_set_unit]
  exact Iff.rfl

/-- Every index of the array lies in the tile of the point its row falls in: row r in tile r / 5000. -/
theorem tiles_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < 20 := by omega
  obtain ⟨e0, e1, e2, e3, e4, e5, e6, e7, e8, e9, e10, e11⟩ := tile_index ⟨(i 0).val / 5000, ht⟩
  refine ⟨⟨(i 0).val / 5000, ht⟩, flush1_5 _, ?_⟩
  rw [mem_tile]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    omega

end CombineProj

/-- Region 1's output array after its twenty points, from the contents V the region is entered at. -/
theorem region1 (c : Dev nD) :
    (dat1 (F := Ideal) V c).arrAt 5 cfg1.N
      = Cert.Bridge.proj (Cert.Bridge.combine (V c main_v44) (V c main_v30) (V c main_v29) (V c main_v45)) (V c main_arg5) :=
  (dat1 (F := Ideal) V c).arrAt_eq_of_cover 5 _ (fun t _ => CombineProj.flushed_combine_proj V c t) CombineProj.tiles_cover

end Cert.KernelIdeal.RegionValue

end
-- ==== Proof.PoolBody.lean ====
/-
  One grid point of the pooling kernel. Its output block is the whole 256 x 128 graph table, kept in its staging
  buffer from point to point: the first point clears it, and every point adds, at graph g and channel ch, the sum
  over the tile's 5000 rows r of onehot(r, g) * relu(agg + h * (1/deg) + b)(r, ch), where onehot(r, g) is 1 when row
  r's graph id is the word g and 0 otherwise.
-/
import proofs.«428762_j9242769621112_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.PoolBody

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-- What one point adds at graph g, channel ch, from the tile's blocks: the aggregated rows agg, the projected rows
    h, the column invd of reciprocal degrees, the bias row b and the column bat of graph ids. -/
def contrib (agg h : S5000x128.Idx → EReal) (invd : S5000x1.Idx → EReal) (b : S1x128.Idx → EReal)
    (bat : S5000x1.Idx → BitVec 32) (g : Fin 256) (ch : Fin 128) : EReal :=
  ∑ r : Fin 5000, (if bat (ix2 r 0) = BitVec.ofNat 32 g.val then (1 : EReal) else 0)
    * max (agg (ix2 r ch) + h (ix2 r ch) * invd (ix2 r 0) + b (ix2 0 ch)) 0

/-- The zero offsets of a whole-block rectangle, as the constant function. -/
theorem hz : (![0, 0] : Fin 2 → Nat) = fun _ => 0 := funext fun a => by fin_cases a <;> rfl

section Pieces
variable {F : FTy → Type} [FloatOps F]

/-- The accumulating case leaves ONE piece, the whole block: the payload over the loaded blocks and the running table. -/
theorem out2_B_5_eq (c : Dev nD) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S256x128 .f32) (harg6 : arg6.IsWhole) (hc0 : ¬cond2_0 i)
    (x0 : Vec F S5000x128 .f32) (x1 : Vec F S5000x128 .bf16) (x2 : Vec F S5000x1 .f32) (x3 : Vec F S1x128 .f32) (x4 : Vec F S5000x1 .i32) (xo5 : Vec F S256x128 .f32) :
    out2_B_5 (F := F) c i arg1 harg1 arg2 harg2 arg3 harg3 arg4 harg4 arg5 harg5 arg6 harg6 hc0 x0 x1 x2 x3 x4 xo5 = k2_pay2 (F := F) x2 x3 x1 x0 x4 xo5 := by
  unfold out2_B_5
  rw [View.read_writes_eq_canon _ _ _ (cover2_B_5 c i arg1 harg1 arg2 harg2 arg3 harg3 arg4 harg4 arg5 harg5 arg6 harg6 hc0 x0 x1 x2 x3 x4 xo5)]
  unfold kernelRun2_B
  dsimp only
  sl_unfold_words
  rw [View.canon_unit_zero (S := S256x128) hz]
  simp only [View.readAt_eq_ld, harg1.read_unread, harg2.read_unread, harg3.read_unread, harg4.read_unread, harg5.read_unread, harg6.read_unread,
    View.ld_unit_zero (S := S5000x128) hz, View.ld_unit_zero (S := S5000x1) hz, View.ld_unit_zero (S := S1x128) hz, View.ld_unit_zero (S := S256x128) hz]

/-- The clearing case leaves two pieces, the later covering: the payload over the loaded blocks and the zero table read back. -/
theorem out2_A_5_eq (c : Dev nD) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S256x128 .f32) (harg6 : arg6.IsWhole) (hc0 : cond2_0 i)
    (x0 : Vec F S5000x128 .f32) (x1 : Vec F S5000x128 .bf16) (x2 : Vec F S5000x1 .f32) (x3 : Vec F S1x128 .f32) (x4 : Vec F S5000x1 .i32) :
    out2_A_5 (F := F) c i arg1 harg1 arg2 harg2 arg3 harg3 arg4 harg4 arg5 harg5 arg6 harg6 hc0 x0 x1 x2 x3 x4 = k2_pay2 (F := F) x2 x3 x1 x0 x4 (k2_pay1 (F := F)) := by
  unfold out2_A_5
  rw [View.read_writes_eq_canon _ _ _ (cover2_A_5 c i arg1 harg1 arg2 harg2 arg3 harg3 arg4 harg4 arg5 harg5 arg6 harg6 hc0 x0 x1 x2 x3 x4)]
  unfold kernelRun2_A
  dsimp only
  sl_unfold_words
  rw [View.canon_cons_unit_zero (S := S256x128) hz, View.readCov_unit_zero (S := S256x128) _ hz]
  simp only [View.readAt_eq_ld, harg1.read_unread, harg2.read_unread, harg3.read_unread, harg4.read_unread, harg5.read_unread,
    View.ld_unit_zero (S := S5000x128) hz, View.ld_unit_zero (S := S5000x1) hz, View.ld_unit_zero (S := S1x128) hz]

end Pieces

/-! ## The one-hot factor and the rectified factor at an index -/

/-- A [a, 1] column broadcast to [a, b] reads, at (p, q), the column's entry of row p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A [1, b] row broadcast to [a, b] reads, at (p, q), the row's entry of column q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The equality bit of two words, widened to a word and converted signed, is 1 when they are equal and 0 otherwise. -/
theorem onehot_word (a b : BitVec 32) :
    (FloatOps.sitofp (F := Ideal) .f32 ((IntOp.cmpi .eq a b).setWidth 32) : EReal) = if a = b then 1 else 0 := by
  by_cases h : a = b
  · have e : IntOp.cmpi .eq a b = 1#1 := by subst h; simp [IntOp.cmpi]
    rw [if_pos h, e]
    show ((((1#1 : BitVec 1).setWidth 32).toInt : ℝ) : EReal) = 1
    have : ((1#1 : BitVec 1).setWidth 32).toInt = 1 := by decide
    rw [this]; norm_num
  · have e : IntOp.cmpi .eq a b = 0#1 := by
      show BitVec.ofBool (a == b) = 0#1
      rw [beq_eq_false_iff_ne.mpr h]; rfl
    rw [if_neg h, e]
    show ((((0#1 : BitVec 1).setWidth 32).toInt : ℝ) : EReal) = 0
    have : ((0#1 : BitVec 1).setWidth 32).toInt = 0 := by decide
    rw [this]; norm_num

/-- The one-hot operand at (k, g): 1 when row k's graph id is the word g, 0 otherwise. -/
theorem onehot_apply (v22 : Vec Ideal S5000x1 .i32) (k : Fin 5000) (g : Fin 256) :
    (truncf .bf16 (sitofp .f32 (extui 32 (cmpi .eq (broadcastTo S5000x256 (v22 : IVec S5000x1 32) broadcasts_S5000x1_S5000x256)
        (iota .tc S5000x256 32 [1] iota_S5000x256_d1_w32)) natLt_1_32) : FVec Ideal S5000x256 .f32) bitsLt_bf16_f32 : FVec Ideal S5000x256 .bf16) (ix2 k g)
      = if v22 (ix2 k (0 : Fin 1)) = BitVec.ofNat 32 g.val then (1 : EReal) else 0 := by
  show (FloatOps.sitofp (F := Ideal) .f32 ((IntOp.cmpi .eq (broadcastTo S5000x256 (v22 : IVec S5000x1 32) broadcasts_S5000x1_S5000x256 (ix2 k g))
        (iota .tc S5000x256 32 [1] iota_S5000x256_d1_w32 (ix2 k g))).setWidth 32) : EReal) = _
  rw [onehot_word, broadcastTo_col_apply, iota_single_apply]

/-- The rectified operand at (k, ch): relu of the aggregated entry plus the projected entry times the row's reciprocal
    degree plus the channel's bias. -/
theorem relu_apply (v3 : Vec Ideal S5000x1 .f32) (v7 : Vec Ideal S1x128 .f32) (v11 : Vec Ideal S5000x128 .bf16) (v14 : Vec Ideal S5000x128 .f32)
    (k : Fin 5000) (ch : Fin 128) :
    (truncf .bf16 (maximumf (addf (addf v14 (mulf (extf .f32 v11 bitsLt_bf16_f32 : FVec Ideal S5000x128 .f32) (broadcastTo S5000x128 v3 broadcasts_S5000x1_S5000x128)))
        (broadcastTo S5000x128 v7 broadcasts_S1x128_S5000x128)) (broadcast S5000x128 (Scalar.ofBits (F := Ideal) .f32 0x00000000#32))) bitsLt_bf16_f32 : FVec Ideal S5000x128 .bf16) (ix2 k ch)
      = max (v14 (ix2 k ch) + v11 (ix2 k ch) * v3 (ix2 k (0 : Fin 1)) + v7 (ix2 (0 : Fin 1) ch)) 0 := by
  show max (v14 (ix2 k ch) + v11 (ix2 k ch) * (broadcastTo S5000x128 v3 broadcasts_S5000x1_S5000x128 (ix2 k ch))
      + broadcastTo S5000x128 v7 broadcasts_S1x128_S5000x128 (ix2 k ch)) (Ideal.ofBits .f32 0x00000000#32) = _
  rw [broadcastTo_col_apply, broadcastTo_row_apply, Ideal.ofBits_zero_f32]

/-! ## The product's operand indices, axis by axis -/

/-- The one-hot operand's row is the contracted row … -/
theorem lhs_pool_0 (j : S256x128.Idx) (q : dot_S5000x256_S5000x128_S256x128_0_0_1_1_n_n.contr.Idx) :
    (dot_S5000x256_S5000x128_S256x128_0_0_1_1_n_n.lhsIdx j q 0).val = (q ⟨0, by decide⟩).val :=
  dot_S5000x256_S5000x128_S256x128_0_0_1_1_n_n.lhsIdx_val_of_single rfl j q
/-- … and its column the output's graph. -/
theorem lhs_pool_1 (j : S256x128.Idx) (q : dot_S5000x256_S5000x128_S256x128_0_0_1_1_n_n.contr.Idx) :
    (dot_S5000x256_S5000x128_S256x128_0_0_1_1_n_n.lhsIdx j q 1).val = (j 0).val := by
  unfold DotDims.lhsIdx
  rw [dif_neg (show ¬(1 : Fin S5000x256.rank) ∈ dot_S5000x256_S5000x128_S256x128_0_0_1_1_n_n.lhsBatch by decide), dif_pos (show (1 : Fin S5000x256.rank) ∈ dot_S5000x256_S5000x128_S256x128_0_0_1_1_n_n.lhsNonContracting by decide)]
  rfl
/-- The rectified operand's row is the contracted row … -/
theorem rhs_pool_0 (j : S256x128.Idx) (q : dot_S5000x256_S5000x128_S256x128_0_0_1_1_n_n.contr.Idx) :
    (dot_S5000x256_S5000x128_S256x128_0_0_1_1_n_n.rhsIdx j q 0).val = (q ⟨0, by decide⟩).val :=
  dot_S5000x256_S5000x128_S256x128_0_0_1_1_n_n.rhsIdx_val_of_single rfl j q
/-- … and its column the output's channel. -/
theorem rhs_pool_1 (j : S256x128.Idx) (q : dot_S5000x256_S5000x128_S256x128_0_0_1_1_n_n.contr.Idx) :
    (dot_S5000x256_S5000x128_S256x128_0_0_1_1_n_n.rhsIdx j q 1).val = (j 1).val := by
  unfold DotDims.rhsIdx
  rw [dif_neg (show ¬(1 : Fin S5000x128.rank) ∈ dot_S5000x256_S5000x128_S256x128_0_0_1_1_n_n.rhsBatch by decide), dif_pos (show (1 : Fin S5000x128.rank) ∈ dot_S5000x256_S5000x128_S256x128_0_0_1_1_n_n.rhsNonContracting by decide)]
  rfl

/-- The product into the zero accumulator at (g, ch): the sum over the tile's rows of the two operands' entries. -/
theorem pool_matmul_apply (L : FVec Ideal S5000x256 .bf16) (R : FVec Ideal S5000x128 .bf16) (g : Fin 256) (ch : Fin 128) :
    matmul dot_S5000x256_S5000x128_S256x128_0_0_1_1_n_n none L R (constant (F := Ideal) S256x128 .f32 0x00000000#32) (ix2 g ch)
      = ∑ k : Fin 5000, L (ix2 k g) * R (ix2 k ch) := by
  simp only [matmul]
  rw [Ideal.matmul_constant_zero_apply, ← Equiv.sum_comp (contrEquiv1 dot_S5000x256_S5000x128_S256x128_0_0_1_1_n_n 5000 rfl rfl).symm]
  refine Finset.sum_congr rfl fun k _ => ?_
  have hk := contrEquiv1_symm_val dot_S5000x256_S5000x128_S256x128_0_0_1_1_n_n 5000 rfl rfl k
  have el : dot_S5000x256_S5000x128_S256x128_0_0_1_1_n_n.lhsIdx (ix2 g ch) ((contrEquiv1 dot_S5000x256_S5000x128_S256x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x256_S5000x128_S256x128_0_0_1_1_n_n.rhsIdx (ix2 g ch) ((contrEquiv1 dot_S5000x256_S5000x128_S256x128_0_0_1_1_n_n 5000 rfl rfl).symm k) = ix2 k ch := funext fun a => Fin.ext (by
    match a with
    | ⟨0, _⟩ => exact (rhs_pool_0 _ _).trans hk
    | ⟨1, _⟩ => exact rhs_pool_1 _ _)
  rw [el, er]

/-- The payload at (g, ch): the previous table's entry plus this point's contribution. -/
theorem k2_pay2_apply (v3 : Vec Ideal S5000x1 .f32) (v7 : Vec Ideal S1x128 .f32) (v11 : Vec Ideal S5000x128 .bf16) (v14 : Vec Ideal S5000x128 .f32)
    (v22 : Vec Ideal S5000x1 .i32) (v31 : Vec Ideal S256x128 .f32) (g : Fin 256) (ch : Fin 128) :
    k2_pay2 (F := Ideal) v3 v7 v11 v14 v22 v31 (ix2 g ch) = v31 (ix2 g ch) + contrib v14 v11 v3 v7 v22 g ch := by
  unfold k2_pay2
  simp only [shapeCast_self]
  refine (addf_apply _ _ _).trans ?_
  refine congrArg (v31 (ix2 g ch) + ·) ?_
  refine (pool_matmul_apply _ _ g ch).trans ?_
  unfold contrib
  refine Finset.sum_congr rfl fun k _ => ?_
  refine congrArg₂ (· * ·) ?_ ?_
  · exact onehot_apply v22 k g
  · exact relu_apply v3 v7 v11 v14 k ch

/-- The first point (the clearing case): the table holds this point's contribution alone. -/
theorem out2_A_5_apply (c : Dev nD) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S256x128 .f32) (harg6 : arg6.IsWhole) (hc0 : cond2_0 i)
    (x0 : Vec Ideal S5000x128 .f32) (x1 : Vec Ideal S5000x128 .bf16) (x2 : Vec Ideal S5000x1 .f32) (x3 : Vec Ideal S1x128 .f32) (x4 : Vec Ideal S5000x1 .i32)
    (g : Fin 256) (ch : Fin 128) :
    out2_A_5 (F := Ideal) c i arg1 harg1 arg2 harg2 arg3 harg3 arg4 harg4 arg5 harg5 arg6 harg6 hc0 x0 x1 x2 x3 x4 (ix2 g ch)
      = contrib x0 x1 x2 x3 x4 g ch := by
  refine (congrFun (out2_A_5_eq (F := Ideal) c i arg1 harg1 arg2 harg2 arg3 harg3 arg4 harg4 arg5 harg5 arg6 harg6 hc0 x0 x1 x2 x3 x4) (ix2 g ch)).trans ?_
  refine (k2_pay2_apply x2 x3 x1 x0 x4 (k2_pay1 (F := Ideal)) g ch).trans ?_
  have h0 : k2_pay1 (F := Ideal) (ix2 g ch) = 0 := Ideal.ofBits_zero_f32
  rw [h0, zero_add]

/-- A later point (the accumulating case): what the point before left, plus this point's contribution. -/
theorem out2_B_5_apply (c : Dev nD) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S256x128 .f32) (harg6 : arg6.IsWhole) (hc0 : ¬cond2_0 i)
    (x0 : Vec Ideal S5000x128 .f32) (x1 : Vec Ideal S5000x128 .bf16) (x2 : Vec Ideal S5000x1 .f32) (x3 : Vec Ideal S1x128 .f32) (x4 : Vec Ideal S5000x1 .i32) (xo5 : Vec Ideal S256x128 .f32)
    (g : Fin 256) (ch : Fin 128) :
    out2_B_5 (F := Ideal) c i arg1 harg1 arg2 harg2 arg3 harg3 arg4 harg4 arg5 harg5 arg6 harg6 hc0 x0 x1 x2 x3 x4 xo5 (ix2 g ch)
      = xo5 (ix2 g ch) + contrib x0 x1 x2 x3 x4 g ch := by
  refine (congrFun (out2_B_5_eq (F := Ideal) c i arg1 harg1 arg2 harg2 arg3 harg3 arg4 harg4 arg5 harg5 arg6 harg6 hc0 x0 x1 x2 x3 x4 xo5) (ix2 g ch)).trans ?_
  exact k2_pay2_apply x2 x3 x1 x0 x4 xo5 g ch

end Cert.KernelIdeal.PoolBody

end
-- ==== Proof.RegionPool.lean ====
/-
  The third kernel region: the graph table accumulated over the twenty row tiles and written back once, after the
  last. After the region its output array is the host's sum of the combined node rows into their graphs: the
  one-hot products pick exactly the rows whose graph id is g, and the twenty tiles' sums are the sum over all rows.
-/
import proofs.«428762_j9242769621112_2_alg».proof.Proof.Gen.KernelIdeal.Frame
import proofs.«428762_j9242769621112_2_alg».proof.Proof.BridgeAt
import proofs.«428762_j9242769621112_2_alg».proof.Proof.PoolBody

set_option maxRecDepth 16384

noncomputable section

namespace Cert.KernelIdeal.RegionValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-! ## The index maps and the block reads -/

/-- The index maps over the grid: the four row-tiled windows sit at block (t, 0); the bias row and the table at (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0 :=
  (by decide +kernel : ∀ t : Fin grid2.N, _)

/-- The region has twenty points. -/
theorem lt20 (t : Fin cfg2.N) : t.val < 20 := lt_of_lt_of_eq t.isLt (show cfg2.N = 20 from N_2)

/-- The five input blocks at point t and the five input arrays. -/
abbrev blk0 (c : Dev nD) (t : Fin cfg2.N) : Vec Ideal S5000x128 .f32 := iblk2 (F := Ideal) V c 0 t
abbrev blk1 (c : Dev nD) (t : Fin cfg2.N) : Vec Ideal S5000x128 .bf16 := iblk2 (F := Ideal) V c 1 t
abbrev blk2 (c : Dev nD) (t : Fin cfg2.N) : Vec Ideal S5000x1 .f32 := iblk2 (F := Ideal) V c 2 t
abbrev blk3 (c : Dev nD) (t : Fin cfg2.N) : Vec Ideal S1x128 .f32 := iblk2 (F := Ideal) V c 3 t
abbrev blk4 (c : Dev nD) (t : Fin cfg2.N) : Vec Ideal S5000x1 .i32 := iblk2 (F := Ideal) V c 4 t
abbrev arr0 (c : Dev nD) : Vec Ideal S100000x128 .f32 := V c main_v60
abbrev arr1 (c : Dev nD) : Vec Ideal S100000x128 .bf16 := V c main_v46
abbrev arr2 (c : Dev nD) : Vec Ideal S100000x1 .f32 := V c main_v29
abbrev arr3 (c : Dev nD) : Vec Ideal S1x128 .f32 := V c main_v61
abbrev arr4 (c : Dev nD) : Vec Ideal S100000x1 .i32 := V c main_v62

/-- Row p of tile t is row 5000 t + p of the node table. -/
abbrev row (t : Fin cfg2.N) (p : Fin 5000) : Fin 100000 := ⟨5000 * t.val + p.val, by have := lt20 t; omega⟩

/-- The aggregated rows' tile at (p, q) is the array at (5000 t + p, q). -/
theorem blk0_apply (c : Dev nD) (t : Fin cfg2.N) (p : Fin 5000) (q : Fin 128) :
    blk0 V c t (ix2 p q) = arr0 V c (ix2 (row t p) q) := by
  obtain ⟨e0, e1, -⟩ := idx_facts t
  unfold blk0 iblk2
  rw [View.read_apply]
  show V c main_v60 _ = V c main_v60 _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 128 + 1 * q.val = q.val; rw [e1]; omega

/-- The projected rows' tile at (p, q) is the array at (5000 t + p, q). -/
theorem blk1_apply (c : Dev nD) (t : Fin cfg2.N) (p : Fin 5000) (q : Fin 128) :
    blk1 V c t (ix2 p q) = arr1 V c (ix2 (row t p) q) := by
  obtain ⟨-, -, e0, e1, -⟩ := idx_facts t
  unfold blk1 iblk2
  rw [View.read_apply]
  show V c main_v46 _ = V c main_v46 _
  congr 1
  funext a
  apply Fin.ext
  match a with
  | ⟨0, _⟩ => show win2_1.index t (0 : Fin 2) * 5000 + 1 * p.val = 5000 * t.val + p.val; rw [e0]; omega
  | ⟨1, _⟩ => show win2_1.index t (1 : Fin 2) * 128 + 1 * q.val = q.val; rw [e1]; omega

/-- The reciprocal degrees' tile at (p, 0) is the column at (5000 t + p, 0). -/
theorem blk2_apply (c : Dev nD) (t : Fin cfg2.N) (p : Fin 5000) (q : Fin 1) :
    blk2 V c t (ix2 p q) = arr2 V c (ix2 (row t p) q) := by
  obtain ⟨-, -, -, -, e0, e1, -⟩ := idx_facts t
  unfold blk2 iblk2
  rw [View.read_apply]
  show V c main_v29 _ = V c main_v29 _
  congr 1
  funext a
  apply Fin.ext
  match a with
  | ⟨0, _⟩ => show win2_2.index t (0 : Fin 2) * 5000 + 1 * p.val = 5000 * t.val + p.val; rw [e0]; omega
  | ⟨1, _⟩ => show win2_2.index t (1 : Fin 2) * 1 + 1 * q.val = q.val; rw [e1]; omega

/-- The bias row's block is the whole row. -/
theorem blk3_apply (c : Dev nD) (t : Fin cfg2.N) (p : Fin 1) (q : Fin 128) :
    blk3 V c t (ix2 p q) = arr3 V c (ix2 p q) := by
  obtain ⟨-, -, -, -, -, -, e0, e1, -⟩ := idx_facts t
  unfold blk3 iblk2
  rw [View.read_apply]
  show V c main_v61 _ = V c main_v61 _
  congr 1
  funext a
  apply Fin.ext
  match a with
  | ⟨0, _⟩ => show win2_3.index t (0 : Fin 2) * 1 + 1 * p.val = p.val; rw [e0]; omega
  | ⟨1, _⟩ => show win2_3.index t (1 : Fin 2) * 128 + 1 * q.val = q.val; rw [e1]; omega

/-- The graph ids' tile at (p, 0) is the column at (5000 t + p, 0). -/
theorem blk4_apply (c : Dev nD) (t : Fin cfg2.N) (p : Fin 5000) (q : Fin 1) :
    blk4 V c t (ix2 p q) = arr4 V c (ix2 (row t p) q) := by
  obtain ⟨-, -, -, -, -, -, -, -, e0, e1, -⟩ := idx_facts t
  unfold blk4 iblk2
  rw [View.read_apply]
  show V c main_v62 _ = V c main_v62 _
  congr 1
  funext a
  apply Fin.ext
  match a with
  | ⟨0, _⟩ => show win2_4.index t (0 : Fin 2) * 5000 + 1 * p.val = 5000 * t.val + p.val; rw [e0]; omega
  | ⟨1, _⟩ => show win2_4.index t (1 : Fin 2) * 1 + 1 * q.val = q.val; rw [e1]; omega

/-! ## A graph id as a word and as a signed integer -/

/-- A 32-bit word is the word of a graph number g < 256 exactly when its signed value is g. -/
theorem word_eq_iff (x : BitVec 32) (g : Fin 256) : x = BitVec.ofNat 32 g.val ↔ x.toInt = (g.val : ℤ) := by
  have hg := g.isLt
  have hx := x.isLt
  constructor
  · rintro rfl
    rw [BitVec.toInt_eq_toNat_cond, BitVec.toNat_ofNat, Nat.mod_eq_of_lt (by omega)]
    split <;> omega
  · intro h
    apply BitVec.eq_of_toNat_eq
    rw [BitVec.toNat_ofNat, Nat.mod_eq_of_lt (by omega)]
    rw [BitVec.toInt_eq_toNat_cond] at h
    split at h <;> omega

/-! ## The table after each point -/

/-- What tile s adds at graph g and channel ch (nothing past the grid). -/
def tile (c : Dev nD) (g : Fin 256) (ch : Fin 128) (s : ℕ) : EReal :=
  if h : s < cfg2.N then
    PoolBody.contrib (blk0 V c ⟨s, h⟩) (blk1 V c ⟨s, h⟩) (blk2 V c ⟨s, h⟩) (blk3 V c ⟨s, h⟩) (blk4 V c ⟨s, h⟩) g ch
  else 0

/-- After point n the table holds the contributions of tiles 0 to n: the first point clears and adds, every later
    point adds to what the point before left. -/
theorem outsAt2_eq (c : Dev nD) (g : Fin 256) (ch : Fin 128) :
    ∀ (n : ℕ) (hn : n < cfg2.N), outsAt2 (F := Ideal) V c n hn (ix2 g ch) = ∑ s ∈ Finset.range (n + 1), tile V c g ch s
  | 0, hn => by
    rw [Finset.sum_range_one]
    refine (congrFun (outsAt2_A (F := Ideal) V c ⟨0, hn⟩ (Nat.zero_mod _)) (ix2 g ch)).trans ?_
    refine (PoolBody.out2_A_5_apply c (grid2.coords ⟨0, hn⟩) (ms2_0 ⟨0, hn⟩) (hs2_0 ⟨0, hn⟩) (ms2_1 ⟨0, hn⟩) (hs2_1 ⟨0, hn⟩)
      (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩)
      ((hcond2_0 ⟨0, hn⟩).mpr (Nat.zero_mod _))
      (blk0 V c ⟨0, hn⟩) (blk1 V c ⟨0, hn⟩) (blk2 V c ⟨0, hn⟩) (blk3 V c ⟨0, hn⟩) (blk4 V c ⟨0, hn⟩) g ch).trans ?_
    unfold tile
    rw [dif_pos hn]
  | n + 1, hn => by
    have hN : cfg2.N = 20 := N_2
    have hB : ¬(⟨n + 1, hn⟩ : Fin cfg2.N).val % 20 = 0 := by dsimp only; omega
    rw [Finset.sum_range_succ, ← outsAt2_eq c g ch n (Nat.lt_of_succ_lt hn)]
    refine (congrFun (outsAt2_B (F := Ideal) V c ⟨n + 1, hn⟩ hB) (ix2 g ch)).trans ?_
    refine (PoolBody.out2_B_5_apply c (grid2.coords ⟨n + 1, hn⟩) (ms2_0 ⟨n + 1, hn⟩) (hs2_0 ⟨n + 1, hn⟩) (ms2_1 ⟨n + 1, hn⟩) (hs2_1 ⟨n + 1, hn⟩)
      (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩)
      (fun h => hB ((hcond2_0 ⟨n + 1, hn⟩).mp h))
      (blk0 V c ⟨n + 1, hn⟩) (blk1 V c ⟨n + 1, hn⟩) (blk2 V c ⟨n + 1, hn⟩) (blk3 V c ⟨n + 1, hn⟩) (blk4 V c ⟨n + 1, hn⟩)
      (outsAt2 (F := Ideal) V c n (Nat.lt_of_succ_lt hn)) g ch).trans ?_
    unfold tile
    rw [dif_pos hn]

/-! ## The twenty tiles are all the rows -/

/-- A sum over the 100000 rows, tile by tile: row 5000 s + p is row p of tile s. -/
theorem sum_rows (f : Fin 100000 → EReal) :
    ∑ r, f r = ∑ s : Fin 20, ∑ p : Fin 5000, f ⟨5000 * s.val + p.val, by have := s.isLt; have := p.isLt; omega⟩ := by
  rw [← Equiv.sum_comp (finProdFinEquiv (m := 20) (n := 5000)) f, Fintype.sum_prod_type]
  refine Finset.sum_congr rfl fun s _ => Finset.sum_congr rfl fun p _ => congrArg f (Fin.ext ?_)
  show p.val + 5000 * s.val = 5000 * s.val + p.val
  omega

/-- One tile's contribution: the tile's rows whose signed graph id is g, read in the combined node table. The
    one-hot factor is 1 on those rows and 0 on the others, and 1 * y = y, 0 * y = 0 for every extended real y. -/
theorem tile_eq (c : Dev nD) (g : Fin 256) (ch : Fin 128) (t : Fin cfg2.N) :
    PoolBody.contrib (blk0 V c t) (blk1 V c t) (blk2 V c t) (blk3 V c t) (blk4 V c t) g ch
      = ∑ p : Fin 5000, (if (arr4 V c (ix2 (row t p) 0)).toInt = (g.val : ℤ)
          then Cert.Bridge.combine (V c main_v60) (V c main_v46) (V c main_v29) (V c main_v61) (ix2 (row t p) ch) else 0) := by
  unfold PoolBody.contrib
  refine Finset.sum_congr rfl fun p _ => ?_
  rw [blk0_apply, blk1_apply, blk2_apply, blk3_apply, blk4_apply, Cert.Bridge.combine_apply]
  by_cases hx : arr4 V c (ix2 (row t p) 0) = BitVec.ofNat 32 g.val
  · rw [if_pos hx, if_pos ((word_eq_iff _ g).mp hx), one_mul]
  · rw [if_neg hx, if_neg (fun h => hx ((word_eq_iff _ g).mpr h)), zero_mul]

/-- After the last point the table is the host's pooled table, entry by entry. -/
theorem table_eq (c : Dev nD) (g : Fin 256) (ch : Fin 128) (hn : 19 < cfg2.N) :
    outsAt2 (F := Ideal) V c 19 hn (ix2 g ch)
      = Cert.Bridge.pool (V c main_v62) (Cert.Bridge.combine (V c main_v60) (V c main_v46) (V c main_v29) (V c main_v61)) (ix2 g ch) := by
  rw [outsAt2_eq, Cert.Bridge.pool_apply, Finset.sum_range, sum_rows]
  refine Finset.sum_congr rfl fun s _ => ?_
  have hs : s.val < cfg2.N := by rw [show cfg2.N = 20 from N_2]; exact s.isLt
  unfold tile
  rw [dif_pos hs, tile_eq]

/-! ## The array after the region -/

/-- The last point. -/
theorem last_lt : 19 < cfg2.N := lt_of_lt_of_eq (by decide : 19 < 20) (show cfg2.N = 20 from N_2).symm
abbrev tLast : Fin cfg2.N := ⟨19, last_lt⟩

/-- Region 2's output array after its twenty points, from the contents V the region is entered at. -/
theorem region2 (c : Dev nD) :
    (dat2 (F := Ideal) V c).arrAt 5 cfg2.N
      = Cert.Bridge.pool (V c main_v62) (Cert.Bridge.combine (V c main_v60) (V c main_v46) (V c main_v29) (V c main_v61)) := by
  obtain ⟨-, -, -, -, -, -, -, -, -, -, e0, e1⟩ := idx_facts tLast
  refine (dat2 (F := Ideal) V c).arrAt_eq_of_cover 5 _ (fun t hf => ?_) (fun i => ?_)
  · -- only the last point writes back, and its block, at index (0, 0), is the whole table
    have h19 : t.val = 19 := by have := (flush2_5 t).mp hf; have := lt20 t; omega
    obtain rfl : t = tLast := Fin.ext h19
    show (cfg2.win 5).cut (grid2.coords tLast) ((dat2 (F := Ideal) V c).after 5 tLast) = _
    rw [after2_5]
    refine funext fun (j : S256x128.Idx) => ?_
    obtain ⟨g, ch, rfl⟩ : ∃ (g : Fin 256) (ch : Fin 128), j = ix2 g ch := ⟨j 0, j 1, eq_ix2 j⟩
    rw [View.read_apply]
    refine Eq.trans (b := outsAt2 (F := Ideal) V c 19 last_lt (ix2 g ch)) ?_ ((table_eq V c g ch last_lt).trans ?_)
    · exact congrArg (outsAt2 (F := Ideal) V c 19 last_lt) (funext fun a => Fin.ext (by
        match a with
        | ⟨0, _⟩ => rfl
        | ⟨1, _⟩ => rfl))
    · show Cert.Bridge.pool _ _ _ = Cert.Bridge.pool _ _ _
      congr 1
      funext a
      apply Fin.ext
      match a with
      | ⟨0, _⟩ => show g.val = win2_5.index tLast (0 : Fin 2) * 256 + 1 * g.val; rw [e0]; omega
      | ⟨1, _⟩ => show ch.val = win2_5.index tLast (1 : Fin 2) * 128 + 1 * ch.val; rw [e1]; omega
  · -- every index of the table is in that one block
    refine ⟨tLast, (flush2_5 tLast).mpr rfl, ?_⟩
    show i ∈ ((View.whole main_v63).slice (win2_5.rect tLast)).set
    rw [View.set_slice_whole, Rect.mem_set_unit]
    intro a
    have h0 : (i 0 : Nat) < 256 := (i 0).isLt
    have h1 : (i 1 : Nat) < 128 := (i 1).isLt
    match a with
    | ⟨0, _⟩ => show win2_5.index tLast (0 : Fin 2) * 256 ≤ (i 0 : Nat) ∧ (i 0 : Nat) < win2_5.index tLast (0 : Fin 2) * 256 + 256
                rw [e0]; omega
    | ⟨1, _⟩ => show win2_5.index tLast (1 : Fin 2) * 128 ≤ (i 1 : Nat) ∧ (i 1 : Nat) < win2_5.index tLast (1 : Fin 2) * 128 + 128
                rw [e1]; omega

end Cert.KernelIdeal.RegionValue

end
-- ==== Proof.Chain.lean ====
/-
  The kernel program's buffer contents at each boundary of @main, followed from the launch memory through the
  host operations and the three regions, against the reference's stages: the first region's output is the
  reference's x W1; the first stretch after it builds the same aggregation; the second region's output is the
  reference's second projection; and so on to the result buffer, which holds the reference's result term of the
  same nine arguments.
-/
import proofs.«428762_j9242769621112_2_alg».proof.Proof.Gen.KernelIdeal.Frame
import proofs.«428762_j9242769621112_2_alg».proof.Proof.Gen.ReferenceIdeal.Read
import proofs.«428762_j9242769621112_2_alg».proof.Proof.BridgeAt
import proofs.«428762_j9242769621112_2_alg».proof.Proof.RegionProj
import proofs.«428762_j9242769621112_2_alg».proof.Proof.RegionCombineProj
import proofs.«428762_j9242769621112_2_alg».proof.Proof.RegionPool
import Idealize.ShloMosaic.Lib.StableHlo.Run

set_option maxRecDepth 16384

noncomputable section

namespace Cert.KernelIdeal.Chain

open Idealize.ShloMosaic Idealize.ShloMosaic.TcCoe Idealize.SL.Sem
open Idealize.ShloMosaic.Pipeline (Dat Cfg Window)
open Idealize.ShloMosaic.ValueIdx
open Cert.KernelIdeal Cert.KernelIdeal.Gen

open Idealize.ShloMosaic.StableHlo

/-! ## A unit axis added by a reshape is the same array as the broadcast along the other axis -/

/-- An n-vector reshaped to n x 1 is its broadcast along axis 0: both read, at (r, 0), the entry r. -/
theorem shapeCast_col_eq_bcast {α : Type} {n : ℕ} (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  have hr : (j 0).val < n := idx2_lt0 j
  have hu : (j 1).val < 1 := idx2_lt1 j
  rw [shapeCast_apply x h j (ix1 ⟨(j 0).val, hr⟩) (by
      rw [Shape.rowMajor_val_two, Shape.rowMajor_val_one]
      show (j 0).val = (j 0).val * 1 + (j 1).val
      omega)]
  exact (broadcastInDim_apply _ hb x j (ix1 ⟨(j 0).val, hr⟩) (fun a => by
      have ha : a = 0 := Subsingleton.elim _ _
      subst ha
      show (j 0).val = if n = 1 then 0 else (j 0).val
      split
      · omega
      · rfl)).symm

/-- An n-vector reshaped to 1 x n is its broadcast along axis 1: both read, at (0, i), the entry i. -/
theorem shapeCast_row_eq_bcast {α : Type} {n : ℕ} (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  have hu : (j 0).val < 1 := idx2_lt0 j
  have hr : (j 1).val < n := idx2_lt1 j
  rw [shapeCast_apply x h j (ix1 ⟨(j 1).val, hr⟩) (by
      rw [Shape.rowMajor_val_two, Shape.rowMajor_val_one]
      show (j 1).val = (j 0).val * n + (j 1).val
      have : (j 0).val = 0 := by omega
      rw [this, Nat.zero_mul, Nat.zero_add])]
  exact (broadcastInDim_apply _ hb x j (ix1 ⟨(j 1).val, hr⟩) (fun a => by
      have ha : a = 0 := Subsingleton.elim _ _
      subst ha
      show (j 1).val = if n = 1 then 0 else (j 1).val
      split
      · omega
      · rfl)).symm

/-! ## Each stretch of host operations, from any entry contents W

Each buffer a stretch writes and that is read later, as the reference's stage of the launch arguments, given that the
buffers the stretch reads hold the reference's stages of the same arguments. The kernel's terms are the reference's,
operation by operation; a conversion from the 16-bit format after a gather is the identity on extended reals. -/

section Stretches
variable (W : Valuation τ sig (Elt Ideal))
variable (a0 : (⟨S100000x128, .f32⟩ : BufTy).Contents (Elt Ideal)) (a1 : (⟨S2x1600000, .i32⟩ : BufTy).Contents (Elt Ideal))
  (a2 : (⟨S100000, .i32⟩ : BufTy).Contents (Elt Ideal)) (a3 : (⟨S128x128, .f32⟩ : BufTy).Contents (Elt Ideal))
  (a4 : (⟨S128, .f32⟩ : BufTy).Contents (Elt Ideal)) (a5 : (⟨S128x128, .f32⟩ : BufTy).Contents (Elt Ideal))
  (a6 : (⟨S128, .f32⟩ : BufTy).Contents (Elt Ideal)) (a7 : (⟨S128x1, .f32⟩ : BufTy).Contents (Elt Ideal))
  (a8 : (⟨S1, .f32⟩ : BufTy).Contents (Elt Ideal))

theorem s0_v1 (h1 : W (Proc.devRef .tc main_arg1) = a1) :
    StableHlo.after (hostOps0 (F := Ideal)) W (Proc.devRef .tc main_v1) = Cert.ReferenceIdeal.Read.val_main_v1 (F := Ideal) a1 := by
  after_results_simp
  rw [h1]
  rfl

theorem s0_v3 (h1 : W (Proc.devRef .tc main_arg1) = a1) :
    StableHlo.after (hostOps0 (F := Ideal)) W (Proc.devRef .tc main_v3) = Cert.ReferenceIdeal.Read.val_main_v3 (F := Ideal) a1 := by
  after_results_simp
  rw [h1]
  rfl

set_option maxHeartbeats 8000000 in
theorem s0_v26 (h1 : W (Proc.devRef .tc main_arg1) = a1) :
    StableHlo.after (hostOps0 (F := Ideal)) W (Proc.devRef .tc main_v26) = Cert.ReferenceIdeal.Read.val_main_v27 (F := Ideal) a1 := by
  after_results_simp
  rw [h1]
  rfl

set_option maxHeartbeats 8000000 in
theorem s0_v29 (h1 : W (Proc.devRef .tc main_arg1) = a1) :
    StableHlo.after (hostOps0 (F := Ideal)) W (Proc.devRef .tc main_v29) = Cert.ReferenceIdeal.Read.val_main_v43 (F := Ideal) a1 := by
  after_results_simp
  rw [h1]
  show shapeCast S100000x1 (Cert.ReferenceIdeal.Read.val_main_v42 (F := Ideal) a1) shapeCasts_S100000_S100000x1 = _
  exact shapeCast_col_eq_bcast _ _ _

set_option maxHeartbeats 8000000 in
theorem s1_v44 (h1 : W (Proc.devRef .tc main_v1) = Cert.ReferenceIdeal.Read.val_main_v1 (F := Ideal) a1)
    (h3 : W (Proc.devRef .tc main_v3) = Cert.ReferenceIdeal.Read.val_main_v3 (F := Ideal) a1)
    (h26 : W (Proc.devRef .tc main_v26) = Cert.ReferenceIdeal.Read.val_main_v27 (F := Ideal) a1)
    (h30 : W (Proc.devRef .tc main_v30) = Cert.ReferenceIdeal.Read.val_main_v4 (F := Ideal) a0 a3) :
    StableHlo.after (hostOps1 (F := Ideal)) W (Proc.devRef .tc main_v44) = Cert.ReferenceIdeal.Read.val_main_v40 (F := Ideal) a0 a1 a3 := by
  after_results_simp
  rw [h1, h3, h26, h30]
  rfl

theorem s1_v45 (h4 : W (Proc.devRef .tc main_arg4) = a4) :
    StableHlo.after (hostOps1 (F := Ideal)) W (Proc.devRef .tc main_v45) = Cert.ReferenceIdeal.Read.val_main_v47 (F := Ideal) a4 := by
  after_results_simp
  rw [h4]
  exact shapeCast_row_eq_bcast _ _ _

set_option maxHeartbeats 8000000 in
theorem s2_v60 (h1 : W (Proc.devRef .tc main_v1) = Cert.ReferenceIdeal.Read.val_main_v1 (F := Ideal) a1)
    (h3 : W (Proc.devRef .tc main_v3) = Cert.ReferenceIdeal.Read.val_main_v3 (F := Ideal) a1)
    (h26 : W (Proc.devRef .tc main_v26) = Cert.ReferenceIdeal.Read.val_main_v27 (F := Ideal) a1)
    (h46 : W (Proc.devRef .tc main_v46) = Cert.ReferenceIdeal.Read.val_main_v51 (F := Ideal) a0 a1 a3 a4 a5) :
    StableHlo.after (hostOps2 (F := Ideal)) W (Proc.devRef .tc main_v60) = Cert.ReferenceIdeal.Read.val_main_v87 (F := Ideal) a0 a1 a3 a4 a5 := by
  after_results_simp
  rw [h1, h3, h26, h46]
  rfl

theorem s2_v61 (h6 : W (Proc.devRef .tc main_arg6) = a6) :
    StableHlo.after (hostOps2 (F := Ideal)) W (Proc.devRef .tc main_v61) = Cert.ReferenceIdeal.Read.val_main_v94 (F := Ideal) a6 := by
  after_results_simp
  rw [h6]
  exact shapeCast_row_eq_bcast _ _ _

theorem s2_v62 (h2 : W (Proc.devRef .tc main_arg2) = a2) :
    StableHlo.after (hostOps2 (F := Ideal)) W (Proc.devRef .tc main_v62) = Cert.ReferenceIdeal.Read.val_main_v99 (F := Ideal) a2 := by
  after_results_simp
  rw [h2]
  exact shapeCast_col_eq_bcast _ _ _

set_option maxHeartbeats 8000000 in
theorem s3_v77 (h2 : W (Proc.devRef .tc main_arg2) = a2) (h7 : W (Proc.devRef .tc main_arg7) = a7) (h8 : W (Proc.devRef .tc main_arg8) = a8)
    (h63 : W (Proc.devRef .tc main_v63) = Cert.ReferenceIdeal.Read.val_main_v100 (F := Ideal) a0 a1 a2 a3 a4 a5 a6) :
    StableHlo.after (hostOps3 (F := Ideal)) W (Proc.devRef .tc main_v77) = Cert.ReferenceIdeal.Read.val_main_v114 (F := Ideal) a0 a1 a2 a3 a4 a5 a6 a7 a8 := by
  after_results_simp
  rw [h2, h7, h8, h63]
  rfl

end Stretches

/-! ## What a stretch does not write, it keeps -/

section Keeps
variable (W : Valuation τ sig (Elt Ideal))

/-- The buffers the first stretch writes. -/
def wr0 : List (Ref sig .tc) :=
  [main_v0, main_v1, main_v2, main_v3, main_cst, main_v4, main_cst_0, main_v5, main_v6, main_v7, main_cst_1, main_v8, main_v9,
   main_cst_2, main_v10, main_v11, main_c, main_v12, main_v13, main_c_3, main_v14, main_v15, main_v16, main_v17, main_v18,
   main_c_4, main_v19, main_v20, main_c_5, main_v21, main_v22, main_v23, main_v24, main_v25, main_v26, main_cst_6, main_v27,
   main_v28, main_v29]
/-- The buffers the second stretch writes. -/
def wr1 : List (Ref sig .tc) :=
  [main_c_7, main_v31, main_v32, main_c_8, main_v33, main_v34, main_v35, main_v36, main_v37, main_v38, main_v39, main_v40,
   main_v41, main_cst_9, main_v42, main_v43, main_v44, main_v45]
/-- The buffers the third stretch writes. -/
def wr2 : List (Ref sig .tc) :=
  [main_c_10, main_v47, main_v48, main_c_11, main_v49, main_v50, main_v51, main_v52, main_v53, main_v54, main_v55, main_v56,
   main_v57, main_cst_12, main_v58, main_v59, main_v60, main_v61, main_v62]

theorem keep0 (r : Ref sig .tc) (hr : r ∉ wr0) :
    StableHlo.after (hostOps0 (F := Ideal)) W (Proc.devRef .tc r) = W (Proc.devRef .tc r) := by
  refine StableHlo.after_of_forall_not_mem (b := Proc.devRef .tc r) _ _ (List.forall_iff_forall_mem.mp ?_)
  simp only [hostOps0, List.Forall, StableHlo.nullary_writes, StableHlo.unary_writes, StableHlo.binary_writes,
    StableHlo.ternary_writes, StableHlo.reshape_writes, Finset.mem_singleton]
  repeat' apply And.intro
  all_goals (refine StableHlo.devRef_ne_of_ne (fun e => ?_); subst e; exact hr (by decide))

theorem keep1 (r : Ref sig .tc) (hr : r ∉ wr1) :
    StableHlo.after (hostOps1 (F := Ideal)) W (Proc.devRef .tc r) = W (Proc.devRef .tc r) := by
  refine StableHlo.after_of_forall_not_mem (b := Proc.devRef .tc r) _ _ (List.forall_iff_forall_mem.mp ?_)
  simp only [hostOps1, List.Forall, StableHlo.nullary_writes, StableHlo.unary_writes, StableHlo.binary_writes,
    StableHlo.ternary_writes, StableHlo.reshape_writes, Finset.mem_singleton]
  repeat' apply And.intro
  all_goals (refine StableHlo.devRef_ne_of_ne (fun e => ?_); subst e; exact hr (by decide))

theorem keep2 (r : Ref sig .tc) (hr : r ∉ wr2) :
    StableHlo.after (hostOps2 (F := Ideal)) W (Proc.devRef .tc r) = W (Proc.devRef .tc r) := by
  refine StableHlo.after_of_forall_not_mem (b := Proc.devRef .tc r) _ _ (List.forall_iff_forall_mem.mp ?_)
  simp only [hostOps2, List.Forall, StableHlo.nullary_writes, StableHlo.unary_writes, StableHlo.binary_writes,
    StableHlo.ternary_writes, StableHlo.reshape_writes, Finset.mem_singleton]
  repeat' apply And.intro
  all_goals (refine StableHlo.devRef_ne_of_ne (fun e => ?_); subst e; exact hr (by decide))

end Keeps

variable (m : (ℓ : Loc nD τ sig) → Buf (Elt Ideal) ℓ) (ρ : Dev nD → PrngReg)

/-! ## A buffer that nothing has written yet holds what it was launched with -/

theorem W1_of (c : Dev nD) (r : Ref sig .tc) (h0 : r ∉ wr0) :
    W1 m ρ c (Proc.devRef .tc r) = W0 m ρ c (Proc.devRef .tc r) :=
  keep0 _ r h0

theorem W2_of (c : Dev nD) (r : Ref sig .tc) (h0 : r ∉ wr0) (hs0 : ∀ w, Pipeline.arrRef spec0 w ≠ r) :
    W2 m ρ c (Proc.devRef .tc r) = W0 m ρ c (Proc.devRef .tc r) :=
  (W2_of_ne m ρ c r hs0).trans (W1_of m ρ c r h0)

theorem W3_of (c : Dev nD) (r : Ref sig .tc) (h0 : r ∉ wr0) (hs0 : ∀ w, Pipeline.arrRef spec0 w ≠ r) (h1 : r ∉ wr1) :
    W3 m ρ c (Proc.devRef .tc r) = W0 m ρ c (Proc.devRef .tc r) :=
  (keep1 _ r h1).trans (W2_of m ρ c r h0 hs0)

theorem W4_of (c : Dev nD) (r : Ref sig .tc) (h0 : r ∉ wr0) (hs0 : ∀ w, Pipeline.arrRef spec0 w ≠ r) (h1 : r ∉ wr1)
    (hs1 : ∀ w, Pipeline.arrRef spec1 w ≠ r) :
    W4 m ρ c (Proc.devRef .tc r) = W0 m ρ c (Proc.devRef .tc r) :=
  (W4_of_ne m ρ c r hs1).trans (W3_of m ρ c r h0 hs0 h1)

theorem W6_of (c : Dev nD) (r : Ref sig .tc) (h0 : r ∉ wr0) (hs0 : ∀ w, Pipeline.arrRef spec0 w ≠ r) (h1 : r ∉ wr1)
    (hs1 : ∀ w, Pipeline.arrRef spec1 w ≠ r) (h2 : r ∉ wr2) (hs2 : ∀ w, Pipeline.arrRef spec2 w ≠ r) :
    W6 m ρ c (Proc.devRef .tc r) = W0 m ρ c (Proc.devRef .tc r) :=
  (W6_of_ne m ρ c r hs2).trans ((keep2 _ r h2).trans (W4_of m ρ c r h0 hs0 h1 hs1))

/-! ## After the first stretch: the edge lists, the edge coefficients and the reciprocal degrees -/

theorem W1_v1 (c : Dev nD) : W1 m ρ c (Proc.devRef .tc main_v1) = Cert.ReferenceIdeal.Read.val_main_v1 (F := Ideal) (m ((c.tc : Thread nD τ).loc main_arg1)) :=
  s0_v1 _ _ rfl
theorem W1_v3 (c : Dev nD) : W1 m ρ c (Proc.devRef .tc main_v3) = Cert.ReferenceIdeal.Read.val_main_v3 (F := Ideal) (m ((c.tc : Thread nD τ).loc main_arg1)) :=
  s0_v3 _ _ rfl
theorem W1_v26 (c : Dev nD) : W1 m ρ c (Proc.devRef .tc main_v26) = Cert.ReferenceIdeal.Read.val_main_v27 (F := Ideal) (m ((c.tc : Thread nD τ).loc main_arg1)) :=
  s0_v26 _ _ rfl
theorem W1_v29 (c : Dev nD) : W1 m ρ c (Proc.devRef .tc main_v29) = Cert.ReferenceIdeal.Read.val_main_v43 (F := Ideal) (m ((c.tc : Thread nD τ).loc main_arg1)) :=
  s0_v29 _ _ rfl

/-! ## After the first region: the first projection -/

theorem W2_v1 (c : Dev nD) : W2 m ρ c (Proc.devRef .tc main_v1) = Cert.ReferenceIdeal.Read.val_main_v1 (F := Ideal) (m ((c.tc : Thread nD τ).loc main_arg1)) :=
  (W2_of_ne m ρ c main_v1 (by decide)).trans (W1_v1 m ρ c)
theorem W2_v3 (c : Dev nD) : W2 m ρ c (Proc.devRef .tc main_v3) = Cert.ReferenceIdeal.Read.val_main_v3 (F := Ideal) (m ((c.tc : Thread nD τ).loc main_arg1)) :=
  (W2_of_ne m ρ c main_v3 (by decide)).trans (W1_v3 m ρ c)
theorem W2_v26 (c : Dev nD) : W2 m ρ c (Proc.devRef .tc main_v26) = Cert.ReferenceIdeal.Read.val_main_v27 (F := Ideal) (m ((c.tc : Thread nD τ).loc main_arg1)) :=
  (W2_of_ne m ρ c main_v26 (by decide)).trans (W1_v26 m ρ c)
theorem W2_v29 (c : Dev nD) : W2 m ρ c (Proc.devRef .tc main_v29) = Cert.ReferenceIdeal.Read.val_main_v43 (F := Ideal) (m ((c.tc : Thread nD τ).loc main_arg1)) :=
  (W2_of_ne m ρ c main_v29 (by decide)).trans (W1_v29 m ρ c)

theorem W2_v30 (c : Dev nD) : W2 m ρ c (Proc.devRef .tc main_v30) = Cert.ReferenceIdeal.Read.val_main_v4 (F := Ideal) (m ((c.tc : Thread nD τ).loc main_arg0)) (m ((c.tc : Thread nD τ).loc main_arg3)) := by
  refine (W2_arr m ρ c 2).trans ((Cert.KernelIdeal.RegionValue.region0 (V1 m ρ) c).trans ?_)
  have e0 : V1 m ρ c main_arg0 = (m ((c.tc : Thread nD τ).loc main_arg0)) := W1_of m ρ c main_arg0 (by decide)
  have e3 : V1 m ρ c main_arg3 = (m ((c.tc : Thread nD τ).loc main_arg3)) := W1_of m ρ c main_arg3 (by decide)
  rw [e0, e3]
  rfl

/-! ## After the second stretch: the first aggregation and the first bias row -/

theorem W3_v1 (c : Dev nD) : W3 m ρ c (Proc.devRef .tc main_v1) = Cert.ReferenceIdeal.Read.val_main_v1 (F := Ideal) (m ((c.tc : Thread nD τ).loc main_arg1)) :=
  (keep1 _ main_v1 (by decide)).trans (W2_v1 m ρ c)
theorem W3_v3 (c : Dev nD) : W3 m ρ c (Proc.devRef .tc main_v3) = Cert.ReferenceIdeal.Read.val_main_v3 (F := Ideal) (m ((c.tc : Thread nD τ).loc main_arg1)) :=
  (keep1 _ main_v3 (by decide)).trans (W2_v3 m ρ c)
theorem W3_v26 (c : Dev nD) : W3 m ρ c (Proc.devRef .tc main_v26) = Cert.ReferenceIdeal.Read.val_main_v27 (F := Ideal) (m ((c.tc : Thread nD τ).loc main_arg1)) :=
  (keep1 _ main_v26 (by decide)).trans (W2_v26 m ρ c)
theorem W3_v29 (c : Dev nD) : W3 m ρ c (Proc.devRef .tc main_v29) = Cert.ReferenceIdeal.Read.val_main_v43 (F := Ideal) (m ((c.tc : Thread nD τ).loc main_arg1)) :=
  (keep1 _ main_v29 (by decide)).trans (W2_v29 m ρ c)
theorem W3_v30 (c : Dev nD) : W3 m ρ c (Proc.devRef .tc main_v30) = Cert.ReferenceIdeal.Read.val_main_v4 (F := Ideal) (m ((c.tc : Thread nD τ).loc main_arg0)) (m ((c.tc : Thread nD τ).loc main_arg3)) :=
  (keep1 _ main_v30 (by decide)).trans (W2_v30 m ρ c)
theorem W3_v44 (c : Dev nD) : W3 m ρ c (Proc.devRef .tc main_v44) = Cert.ReferenceIdeal.Read.val_main_v40 (F := Ideal) (m ((c.tc : Thread nD τ).loc main_arg0)) (m ((c.tc : Thread nD τ).loc main_arg1)) (m ((c.tc : Thread nD τ).loc main_arg3)) :=
  s1_v44 _ _ _ _ (W2_v1 m ρ c) (W2_v3 m ρ c) (W2_v26 m ρ c) (W2_v30 m ρ c)
theorem W3_v45 (c : Dev nD) : W3 m ρ c (Proc.devRef .tc main_v45) = Cert.ReferenceIdeal.Read.val_main_v47 (F := Ideal) (m ((c.tc : Thread nD τ).loc main_arg4)) :=
  s1_v45 _ _ (W2_of m ρ c main_arg4 (by decide) (by decide))

/-! ## After the second region: the second projection -/

theorem W4_v46 (c : Dev nD) :
    W4 m ρ c (Proc.devRef .tc main_v46) = Cert.ReferenceIdeal.Read.val_main_v51 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W4_arr m ρ c 5).trans ((Cert.KernelIdeal.RegionValue.region1 (V3 m ρ) c).trans ?_)
  have e44 : V3 m ρ c main_v44 = _ := W3_v44 m ρ c
  have e30 : V3 m ρ c main_v30 = _ := W3_v30 m ρ c
  have e29 : V3 m ρ c main_v29 = _ := W3_v29 m ρ c
  have e45 : V3 m ρ c main_v45 = _ := W3_v45 m ρ c
  have e5 : V3 m ρ c main_arg5 = (m ((c.tc : Thread nD τ).loc main_arg5)) := W3_of m ρ c main_arg5 (by decide) (by decide) (by decide)
  rw [e44, e30, e29, e45, e5]
  rfl

theorem W4_v1 (c : Dev nD) : W4 m ρ c (Proc.devRef .tc main_v1) = Cert.ReferenceIdeal.Read.val_main_v1 (F := Ideal) (m ((c.tc : Thread nD τ).loc main_arg1)) :=
  (W4_of_ne m ρ c main_v1 (by decide)).trans (W3_v1 m ρ c)
theorem W4_v3 (c : Dev nD) : W4 m ρ c (Proc.devRef .tc main_v3) = Cert.ReferenceIdeal.Read.val_main_v3 (F := Ideal) (m ((c.tc : Thread nD τ).loc main_arg1)) :=
  (W4_of_ne m ρ c main_v3 (by decide)).trans (W3_v3 m ρ c)
theorem W4_v26 (c : Dev nD) : W4 m ρ c (Proc.devRef .tc main_v26) = Cert.ReferenceIdeal.Read.val_main_v27 (F := Ideal) (m ((c.tc : Thread nD τ).loc main_arg1)) :=
  (W4_of_ne m ρ c main_v26 (by decide)).trans (W3_v26 m ρ c)
/-- The reciprocal degrees are an input window of the second region: it leaves them as entered. -/
theorem W4_v29 (c : Dev nD) : W4 m ρ c (Proc.devRef .tc main_v29) = Cert.ReferenceIdeal.Read.val_main_v43 (F := Ideal) (m ((c.tc : Thread nD τ).loc main_arg1)) :=
  ((W4_arr m ρ c 2).trans (((dat1 (V3 m ρ) c).arrAt_in 2 rfl _).trans (A_eq1 (V3 m ρ) c 2))).trans (W3_v29 m ρ c)

/-! ## After the third stretch: the second aggregation, the second bias row and the graph ids -/

theorem W5_v29 (c : Dev nD) : W5 m ρ c (Proc.devRef .tc main_v29) = Cert.ReferenceIdeal.Read.val_main_v43 (F := Ideal) (m ((c.tc : Thread nD τ).loc main_arg1)) :=
  (keep2 _ main_v29 (by decide)).trans (W4_v29 m ρ c)
theorem W5_v46 (c : Dev nD) :
    W5 m ρ c (Proc.devRef .tc main_v46) = Cert.ReferenceIdeal.Read.val_main_v51 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (keep2 _ main_v46 (by decide)).trans (W4_v46 m ρ c)
theorem W5_v60 (c : Dev nD) :
    W5 m ρ c (Proc.devRef .tc main_v60) = Cert.ReferenceIdeal.Read.val_main_v87 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  s2_v60 _ _ _ _ _ _ (W4_v1 m ρ c) (W4_v3 m ρ c) (W4_v26 m ρ c) (W4_v46 m ρ c)
theorem W5_v61 (c : Dev nD) : W5 m ρ c (Proc.devRef .tc main_v61) = Cert.ReferenceIdeal.Read.val_main_v94 (F := Ideal) (m ((c.tc : Thread nD τ).loc main_arg6)) :=
  s2_v61 _ _ (W4_of m ρ c main_arg6 (by decide) (by decide) (by decide) (by decide))
theorem W5_v62 (c : Dev nD) : W5 m ρ c (Proc.devRef .tc main_v62) = Cert.ReferenceIdeal.Read.val_main_v99 (F := Ideal) (m ((c.tc : Thread nD τ).loc main_arg2)) :=
  s2_v62 _ _ (W4_of m ρ c main_arg2 (by decide) (by decide) (by decide) (by decide))

/-! ## After the third region: the pooled graph table -/

theorem W6_v63 (c : Dev nD) :
    W6 m ρ c (Proc.devRef .tc main_v63) = Cert.ReferenceIdeal.Read.val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W6_arr m ρ c 5).trans ((Cert.KernelIdeal.RegionValue.region2 (V5 m ρ) c).trans ?_)
  have e62 : V5 m ρ c main_v62 = _ := W5_v62 m ρ c
  have e60 : V5 m ρ c main_v60 = _ := W5_v60 m ρ c
  have e46 : V5 m ρ c main_v46 = _ := W5_v46 m ρ c
  have e29 : V5 m ρ c main_v29 = _ := W5_v29 m ρ c
  have e61 : V5 m ρ c main_v61 = _ := W5_v61 m ρ c
  rw [e62, e60, e46, e29, e61]
  rfl

/-- The result buffer at the last boundary holds the reference's result term of the launch arguments. -/
theorem result_eq (c : Dev nD) :
    W7 (F := Ideal) m ρ c (Proc.devRef .tc main_v77)
      = Cert.ReferenceIdeal.Read.val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  s3_v77 _ _ _ _ _ _ _ _ _ _
    (W6_of m ρ c main_arg2 (by decide) (by decide) (by decide) (by decide) (by decide) (by decide))
    (W6_of m ρ c main_arg7 (by decide) (by decide) (by decide) (by decide) (by decide) (by decide))
    (W6_of m ρ c main_arg8 (by decide) (by decide) (by decide) (by decide) (by decide) (by decide))
    (W6_v63 m ρ c)

end Cert.KernelIdeal.Chain

end
-- ==== Proof.lean ====
/-
  The kernel computes two graph-convolution layers and a mean pool in three tiled kernels among host gathers and
  scatter-adds; the reference computes the same with host operations only. Over the extended reals the two results
  are one function of the nine arguments: a change of float format is the identity, a row tile of a matrix product
  is the rows of the whole product, and the product of the one-hot graph-membership matrix with the node rows,
  added up over the twenty row tiles, is the host's scatter-add of the node rows into their graphs (0 * y = 0 and
  1 * y = y hold for every extended real, and sums may be regrouped freely, so no finiteness is used).
  The kernel's frames are the generated ones; the reference's frame is its generated run with the result dropped;
  no operation was rewritten by the ideal pass, so the preservation claim is trivial. For the value, the launch is
  read once more with the result buffer named at the last boundary's contents (ValueRun), those contents are
  followed back to the reference's stages (Chain, over one value lemma per region), and the reference's run ends at
  its result stage of arguments that agree.
-/
import proofs.«428762_j9242769621112_2_alg».proof.Defs
import proofs.«428762_j9242769621112_2_alg».proof.Proof.Gen.Kernel
import proofs.«428762_j9242769621112_2_alg».proof.Proof.Gen.Kernel.Skeleton
import proofs.«428762_j9242769621112_2_alg».proof.Proof.Gen.Kernel.Launch
import proofs.«428762_j9242769621112_2_alg».proof.Proof.Gen.Kernel.Points
import proofs.«428762_j9242769621112_2_alg».proof.Proof.Gen.Kernel.Frame
import proofs.«428762_j9242769621112_2_alg».proof.Proof.Gen.KernelIdeal
import proofs.«428762_j9242769621112_2_alg».proof.Proof.Gen.KernelIdeal.Skeleton
import proofs.«428762_j9242769621112_2_alg».proof.Proof.Gen.KernelIdeal.Launch
import proofs.«428762_j9242769621112_2_alg».proof.Proof.Gen.KernelIdeal.Points
import proofs.«428762_j9242769621112_2_alg».proof.Proof.Gen.KernelIdeal.Frame
import proofs.«428762_j9242769621112_2_alg».proof.Proof.Gen.ReferenceIdeal
import proofs.«428762_j9242769621112_2_alg».proof.Proof.Gen.ReferenceIdeal.Run
import proofs.«428762_j9242769621112_2_alg».proof.Proof.Gen.ReferenceIdeal.Read
import proofs.«428762_j9242769621112_2_alg».proof.Proof.Gen.Pre_finite_inputs
import proofs.«428762_j9242769621112_2_alg».proof.Proof.ValueRun
import proofs.«428762_j9242769621112_2_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result stage of the kernel's arguments: the kernel by its launch and the
    chain of boundary contents, the reference by its run, its arguments being the kernel's. -/
theorem algebraic : Cert.algebraic_KernelIdeal_ReferenceIdeal := by
  intro m ρ m' ρ' _ hagree
  refine ⟨fun c => Cert.ReferenceIdeal.Read.val_main_v114 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Chain.result_eq m ρ c), (h c).2⟩)
      (Cert.KernelIdeal.ValueRun.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v114_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
